-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048 .f32) (main_arg12 : FVec F S2048x2048 .f32) (main_arg13 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_v63 main_v67

def fn_part2 {F : FTy → Type} [FloatOps F] (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_v48 main_v49 main_v50

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x2048 .f32) (main_arg1 : FVec F S8192x2048 .f32) (main_arg2 : FVec F S2048x2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S6144x2048 : Shape := ⟨2, ![6144, 2048]⟩
abbrev S6144 : Shape := ⟨1, ![6144]⟩
abbrev S2048x6144 : Shape := ⟨2, ![2048, 6144]⟩
abbrev S8192x6144 : Shape := ⟨2, ![8192, 6144]⟩
abbrev S1024x2048 : Shape := ⟨2, ![1024, 2048]⟩
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S256x6144 : Shape := ⟨2, ![256, 6144]⟩
abbrev S256x2048 : Shape := ⟨2, ![256, 2048]⟩

abbrev nBuf : Space → Nat
  | .hbm => 25
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S6144x2048, .f32⟩
  | .hbm, ⟨15, _⟩ => ⟨S6144, .f32⟩
  | .hbm, ⟨16, _⟩ => ⟨S6144x2048, .f32⟩
  | .hbm, ⟨17, _⟩ => ⟨S6144, .f32⟩
  | .hbm, ⟨18, _⟩ => ⟨S2048x6144, .f32⟩
  | .hbm, ⟨19, _⟩ => ⟨S2048x6144, .bf16⟩
  | .hbm, ⟨20, _⟩ => ⟨S2048x6144, .f32⟩
  | .hbm, ⟨21, _⟩ => ⟨S2048x6144, .bf16⟩
  | .hbm, ⟨22, _⟩ => ⟨S8192x6144, .f32⟩
  | .hbm, ⟨23, _⟩ => ⟨S8192x6144, .f32⟩
  | .hbm, ⟨24, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .f32⟩
  | .local _ .vmem, ⟨9, _⟩ => ⟨S1024x2048, .f32⟩
  | .local _ .vmem, ⟨10, _⟩ => ⟨S2048x1024, .bf16⟩
  | .local _ .vmem, ⟨11, _⟩ => ⟨S2048x1024, .bf16⟩
  | .local _ .vmem, ⟨12, _⟩ => ⟨S1024, .f32⟩
  | .local _ .vmem, ⟨13, _⟩ => ⟨S1024, .f32⟩
  | .local _ .vmem, ⟨14, _⟩ => ⟨S1024x1024, .f32⟩
  | .local _ .vmem, ⟨15, _⟩ => ⟨S1024x1024, .f32⟩
  | .local _ .vmem, ⟨16, _⟩ => ⟨S256x6144, .f32⟩
  | .local _ .vmem, ⟨17, _⟩ => ⟨S256x6144, .f32⟩
  | .local _ .vmem, ⟨18, _⟩ => ⟨S256x6144, .f32⟩
  | .local _ .vmem, ⟨19, _⟩ => ⟨S256x6144, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x6144 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x6144 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S2048x2048_S2048x2048_S2048x2048_S6144x2048_d0 : Shape.Concatenates [S2048x2048, S2048x2048, S2048x2048] S6144x2048 0
  concatenates_S2048_S2048_S2048_S6144_d0 : Shape.Concatenates [S2048, S2048, S2048] S6144 0
  transposes_S6144x2048_S2048x6144_1_0 : S6144x2048.Transposes [1, 0] S2048x6144
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  inb_S256x6144_S256x2048_0_0 : ∀ a, (![0, 0] : Fin 2 → Nat) a + S256x2048.size a ≤ S256x6144.size a
  h_S256x2048 : 0 < S256x2048.numel
  shapeCasts_S256x2048_S256x2048 : S256x2048.ShapeCasts S256x2048
  inb_S256x6144_S256x2048_0_2048 : ∀ a, (![0, 2048] : Fin 2 → Nat) a + S256x2048.size a ≤ S256x6144.size a
  inb_S256x6144_S256x2048_0_4096 : ∀ a, (![0, 4096] : Fin 2 → Nat) a + S256x2048.size a ≤ S256x6144.size a
  inb_S256x2048_S256x2048_0_0 : ∀ a, (![0, 0] : Fin 2 → Nat) a + S256x2048.size a ≤ S256x2048.size a
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x6144.size a
  hwx0_1 : ∀ i : grid0.Coords, EltTy.bits .bf16 = 32 ∨ (Rect.block (s := S2048x6144) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S6144.size a
  hwx0_2 : ∀ i : grid0.Coords, EltTy.bits .f32 = 32 ∨ (Rect.block (s := S6144) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x6144.size a
  hwx0_3 : ∀ i : grid0.Coords, EltTy.bits .f32 = 32 ∨ (Rect.block (s := S8192x6144) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .f32 = 32 ∨ (Rect.block (s := S8192x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x6144.size a
  hwx1_1 : ∀ i : grid1.Coords, EltTy.bits .bf16 = 32 ∨ (Rect.block (s := S2048x6144) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S6144.size a
  hwx1_2 : ∀ i : grid1.Coords, EltTy.bits .f32 = 32 ∨ (Rect.block (s := S6144) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x6144.size a
  hwx1_3 : ∀ i : grid1.Coords, EltTy.bits .f32 = 32 ∨ (Rect.block (s := S8192x6144) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x6144.size a ≤ S8192x6144.size a
  hwx2_0 : ∀ i : grid2.Coords, EltTy.bits .f32 = 32 ∨ (Rect.block (s := S8192x6144) S256x6144.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x6144.size a ≤ S8192x6144.size a
  hwx2_1 : ∀ i : grid2.Coords, EltTy.bits .f32 = 32 ∨ (Rect.block (s := S8192x6144) S256x6144.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S8192x2048.size a
  hwx2_2 : ∀ i : grid2.Coords, EltTy.bits .f32 = 32 ∨ (Rect.block (s := S8192x2048) S256x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S8192x2048.size a
  hwx2_3 : ∀ i : grid2.Coords, EltTy.bits .f32 = 32 ∨ (Rect.block (s := S8192x2048) S256x2048.size (cc2_transform_3 i) (hinb2_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S256x6144.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S256x6144.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S256x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S256x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S6144x2048 : Shape := ⟨2, ![6144, 2048]⟩
abbrev S6144 : Shape := ⟨1, ![6144]⟩
abbrev S2048x6144 : Shape := ⟨2, ![2048, 6144]⟩
abbrev S8192x6144 : Shape := ⟨2, ![8192, 6144]⟩
abbrev S1x6144 : Shape := ⟨2, ![1, 6144]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S6144x2048, .f32⟩
  | .hbm, ⟨15, _⟩ => ⟨S6144, .f32⟩
  | .hbm, ⟨16, _⟩ => ⟨S6144x2048, .f32⟩
  | .hbm, ⟨17, _⟩ => ⟨S6144, .f32⟩
  | .hbm, ⟨18, _⟩ => ⟨S2048x6144, .f32⟩
  | .hbm, ⟨19, _⟩ => ⟨S8192x6144, .f32⟩
  | .hbm, ⟨20, _⟩ => ⟨S1x6144, .f32⟩
  | .hbm, ⟨21, _⟩ => ⟨S8192x6144, .f32⟩
  | .hbm, ⟨22, _⟩ => ⟨S8192x6144, .f32⟩
  | .hbm, ⟨23, _⟩ => ⟨S2048x6144, .f32⟩
  | .hbm, ⟨24, _⟩ => ⟨S8192x6144, .f32⟩
  | .hbm, ⟨25, _⟩ => ⟨S1x6144, .f32⟩
  | .hbm, ⟨26, _⟩ => ⟨S8192x6144, .f32⟩
  | .hbm, ⟨27, _⟩ => ⟨S8192x6144, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  concatenates_S2048x2048_S2048x2048_S2048x2048_S6144x2048_d0 : Shape.Concatenates [S2048x2048, S2048x2048, S2048x2048] S6144x2048 0
  concatenates_S2048_S2048_S2048_S6144_d0 : Shape.Concatenates [S2048, S2048, S2048] S6144 0
  transposes_S6144x2048_S2048x6144_1_0 : S6144x2048.Transposes [1, 0] S2048x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  bcast_S_S8192x2048 : S_.BroadcastsInDim S8192x2048 (![] : Fin 0 → Fin S8192x2048.rank)
  dot_S8192x2048_S2048x6144_S8192x6144_1_0_0_1_n_n_wf : DotDims.WF S8192x2048 S2048x6144 S8192x6144 [1] [0] [0] [1] [] []

variable [Facts₀]

def dot_S8192x2048_S2048x6144_S8192x6144_1_0_0_1_n_n : DotDims S8192x2048 S2048x6144 S8192x6144 where
  lhsContracting := [1]
  rhsContracting := [0]
  lhsNonContracting := [0]
  rhsNonContracting := [1]
  lhsBatch := []
  rhsBatch := []
  wf := dot_S8192x2048_S2048x6144_S8192x6144_1_0_0_1_n_n_wf

class Facts : Prop extends Facts₀ where

variable [Facts]
-- ==== Proof.K.Proj0Data.lean ====
/- A projection  x · Wᵀ + b  as a pallas_call (number 0 of @main's three kernel regions): the data of its pipeline.
   Grid 8 × 6. At point (i, j) the body reads rows 1024·i … of the activations (all 2048 columns),
   columns 1024·j … of the transposed weight (all 2048 rows) and entries 1024·j … of the bias, and stores the
   1024 × 1024 block  (block of x) · (block of Wᵀ) + (bias row, repeated down the rows)  whole.
   Stated at a parameter V, the buffer contents when the region is entered. -/
import proofs.«152705_j64793876628224_1_alg».proof.Proof.Gen.Kernel.Launch
import proofs.«152705_j64793876628224_1_alg».proof.Proof.Gen.Kernel.Skeleton
import proofs.«152705_j64793876628224_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- Window w's block at grid point t, read off its array as the region finds it. -/
def winBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's four whole-buffer accesses: the activations' block, the weight's block, the bias' block, the result's block. -/
abbrev actRect0 : Rect S1024x2048 := Rect.unit (s := S1024x2048) ![0, 0] S1024x2048.size inb_S1024x2048_S1024x2048_0_0
abbrev wgtRect0 : Rect S2048x1024 := Rect.unit (s := S2048x1024) ![0, 0] S2048x1024.size inb_S2048x1024_S2048x1024_0_0
abbrev biasRect0 : Rect S1024 := Rect.unit (s := S1024) ![0] S1024.size inb_S1024_S1024_0
abbrev resRect0 : Rect S1024x1024 := Rect.unit (s := S1024x1024) ![0, 0] S1024x1024.size inb_S1024x1024_S1024x1024_0_0

/-- What the body leaves in the result window's staging buffer, from the three input blocks: its one store, of the
    product-plus-bias payload, as a single piece. -/
def projOut0 (x0 : Vec F S1024x2048 .f32) (x1 : Vec F S2048x1024 .bf16) (x2 : Vec F S1024 .f32) : Vec F S1024x1024 .f32 :=
  View.canon [⟨resRect0, k0_pay1 (View.ld x0 actRect0) (View.ld x1 wgtRect0) (View.ld x2 biasRect0)⟩]

/-- The pipeline's proof data on core c: the arrays as the region finds them; after the body at point t each input's
    buffer still at its block and the result's at projOut of the three input blocks; the invariant is the scoped rest and
    the generator register, untouched; nothing owed; full shares. -/
def projDat0 (c : Dev nD) : Dat τ (Elt F) Unit ℕ (UR sig nD τ) ℕ cfg0 c where
  A w := V c (Pipeline.arrRef spec0 w)
  after w t := match w with
    | ⟨0, _⟩ => winBlock0 V c 0 t
    | ⟨1, _⟩ => winBlock0 V c 1 t
    | ⟨2, _⟩ => winBlock0 V c 2 t
    | ⟨3, _⟩ => projOut0 (winBlock0 V c 0 t) (winBlock0 V c 1 t) (winBlock0 V c 2 t)
  Φ _ := Pipeline.ΦA spec0 c
  q _ := fullShare
  owed _ := 0

theorem projDat0_A (c : Dev nD) (w : Fin cfg0.W) : (projDat0 V c).A w = V c (Pipeline.arrRef spec0 w) := by
  dsimp only [projDat0]

theorem projDat0_after0 (c : Dev nD) (t : Fin cfg0.N) : (projDat0 V c).after 0 t = winBlock0 V c 0 t := by dsimp only [projDat0]
theorem projDat0_after1 (c : Dev nD) (t : Fin cfg0.N) : (projDat0 V c).after 1 t = winBlock0 V c 1 t := by dsimp only [projDat0]
theorem projDat0_after2 (c : Dev nD) (t : Fin cfg0.N) : (projDat0 V c).after 2 t = winBlock0 V c 2 t := by dsimp only [projDat0]
theorem projDat0_after3 (c : Dev nD) (t : Fin cfg0.N) :
    (projDat0 V c).after 3 t = projOut0 (winBlock0 V c 0 t) (winBlock0 V c 1 t) (winBlock0 V c 2 t) := by dsimp only [projDat0]

end Cert.Kernel.Gru

end
-- ==== Proof.K.Proj0Body.lean ====
/- The projection pallas_call (number 0 of @main's three kernel regions): its body's triple and the pipeline's body obligation.
   On whole staging buffers holding the three input blocks, the body runs to the end, leaves the inputs as they were and the
   result's buffer at projOut0 of them: it loads each input whole, computes, and stores the result block whole (it also
   loads the result's old contents, which it never uses). At every grid point the pipeline hands the body exactly those
   blocks, whether the window was fetched at that point or kept from the point before. -/
import proofs.«152705_j64793876628224_1_alg».proof.Proof.K.Proj0Data

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- An input window's current staging buffer holds its block at every point, fetched there or not, for any proof data whose
    array is V's and whose body leaves the block in place. -/
theorem projBefore0_0_of {c : Dev nD} (dat : Dat τ (Elt F) Unit ℕ (UR sig nD τ) ℕ cfg0 c) (hA : dat.A 0 = V c (Pipeline.arrRef spec0 0))
    (hafter : ∀ t, dat.after 0 t = winBlock0 V c 0 t) (t : Fin cfg0.N) (d) : dat.before 0 t d = winBlock0 V c 0 t :=
  (dat.before_in_eq_fetched 0 rfl (fun _ => rfl) (fun _ _ _ => rfl) (fun t => by rw [hafter]; unfold Dat.blockOf winBlock0; rw [hA]; try rfl) t d).trans
    (by unfold Dat.fetched Dat.blockOf winBlock0; rw [hA]; try rfl)
theorem projBefore0_1_of {c : Dev nD} (dat : Dat τ (Elt F) Unit ℕ (UR sig nD τ) ℕ cfg0 c) (hA : dat.A 1 = V c (Pipeline.arrRef spec0 1))
    (hafter : ∀ t, dat.after 1 t = winBlock0 V c 1 t) (t : Fin cfg0.N) (d) : dat.before 1 t d = winBlock0 V c 1 t :=
  (dat.before_in_eq_fetched 1 rfl (fun _ => rfl) (fun _ _ _ => rfl) (fun t => by rw [hafter]; unfold Dat.blockOf winBlock0; rw [hA]; try rfl) t d).trans
    (by unfold Dat.fetched Dat.blockOf winBlock0; rw [hA]; try rfl)
theorem projBefore0_2_of {c : Dev nD} (dat : Dat τ (Elt F) Unit ℕ (UR sig nD τ) ℕ cfg0 c) (hA : dat.A 2 = V c (Pipeline.arrRef spec0 2))
    (hafter : ∀ t, dat.after 2 t = winBlock0 V c 2 t) (t : Fin cfg0.N) (d) : dat.before 2 t d = winBlock0 V c 2 t :=
  (dat.before_in_eq_fetched 2 rfl (fun _ => rfl) (fun _ _ _ => rfl) (fun t => by rw [hafter]; unfold Dat.blockOf winBlock0; rw [hA]; try rfl) t d).trans
    (by unfold Dat.fetched Dat.blockOf winBlock0; rw [hA]; try rfl)

/-- The one store covers the result's buffer. -/
theorem projCover0 (p0 : Vec F S1024x1024 .f32) (y : S1024x1024.Idx) :
    ∃ pc ∈ ([⟨resRect0, p0⟩] : List (View.Piece (Elt F) S1024x1024 .f32)), y ∈ pc.1.set :=
  View.cover_of_tiled [⟨resRect0, p0⟩] S1024x1024.size (by rfl) y

set_option maxHeartbeats 1000000 in
/-- The body's triple on whole staging memrefs. -/
theorem projKernel0 (c : Dev nD) (E : Set ℕ) (i : grid0.Coords)
    (arg2 : Memref sig .tc .vmem S1024x2048 .f32) (harg2 : arg2.IsWhole) (arg3 : Memref sig .tc .vmem S2048x1024 .bf16) (harg3 : arg3.IsWhole)
    (arg4 : Memref sig .tc .vmem S1024 .f32) (harg4 : arg4.IsWhole) (arg5 : Memref sig .tc .vmem S1024x1024 .f32) (harg5 : arg5.IsWhole)
    (x0 : Vec F S1024x2048 .f32) (x1 : Vec F S2048x1024 .bf16) (x2 : Vec F S1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (projOut0 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover0 _)

theorem projBefore0_0 (c : Dev nD) (t : Fin cfg0.N) (d) : (projDat0 V c).before 0 t d = winBlock0 V c 0 t :=
  projBefore0_0_of V (projDat0 V c) (projDat0_A V c 0) (projDat0_after0 V c) t d
theorem projBefore0_1 (c : Dev nD) (t : Fin cfg0.N) (d) : (projDat0 V c).before 1 t d = winBlock0 V c 1 t :=
  projBefore0_1_of V (projDat0 V c) (projDat0_A V c 1) (projDat0_after1 V c) t d
theorem projBefore0_2 (c : Dev nD) (t : Fin cfg0.N) (d) : (projDat0 V c).before 2 t d = winBlock0 V c 2 t :=
  projBefore0_2_of V (projDat0 V c) (projDat0_A V c 2) (projDat0_after2 V c) t d

/-- What the body is called with at point t, the windows one by one, -/
def projPre0 (c : Dev nD) (t : Fin cfg0.N) : sProp 𝕄 :=
  iprop((projDat0 V c).Φ t.castSucc ∗ (projDat0 V c).owesAt () t.castSucc
    ∗ (∃ d, owns (c : Thread nD τ) (st0_0 t) fullShare ((projDat0 V c).before 0 t d))
    ∗ (∃ d, owns (c : Thread nD τ) (st0_1 t) fullShare ((projDat0 V c).before 1 t d))
    ∗ (∃ d, owns (c : Thread nD τ) (st0_2 t) fullShare ((projDat0 V c).before 2 t d))
    ∗ (∃ d, owns (c : Thread nD τ) (st0_3 t) fullShare ((projDat0 V c).before 3 t d)))

/-- and what it returns. -/
def projPost0 (c : Dev nD) (t : Fin cfg0.N) : sProp 𝕄 :=
  iprop((projDat0 V c).Φ t.succ ∗ (projDat0 V c).owesAt () t.succ
    ∗ owns (c : Thread nD τ) (st0_0 t) fullShare ((projDat0 V c).after 0 t)
    ∗ owns (c : Thread nD τ) (st0_1 t) fullShare ((projDat0 V c).after 1 t)
    ∗ owns (c : Thread nD τ) (st0_2 t) fullShare ((projDat0 V c).after 2 t)
    ∗ owns (c : Thread nD τ) (st0_3 t) fullShare ((projDat0 V c).after 3 t))

/-- The body at any point: the inputs' memrefs hold their blocks, so the triple applies; the invariant and the core's
    dues pass through unread. -/
theorem projBody0 (c : Dev nD) (t : Fin cfg0.N) :
    projPre0 V c t ⊢ wp frame (wpE (defs₀ (F := F)) Variants.none c none) Set.univ (bodyAt0 t) (fun _ => projPost0 V c t) := by
  unfold projPre0 projPost0 bodyAt0
  simp only [projBefore0_0, projBefore0_1, projBefore0_2]
  rw [show (projDat0 V c).Φ t.succ = (projDat0 V c).Φ t.castSucc from rfl,
    show (projDat0 V c).owesAt () t.succ = (projDat0 V c).owesAt () t.castSucc from rfl,
    projDat0_after0, projDat0_after1, projDat0_after2, projDat0_after3]
  iintro ⟨HΦ, Ho, ⟨%d0, H0⟩, ⟨%d1, H1⟩, ⟨%d2, H2⟩, ⟨%d3, H3⟩⟩
  iapply (projKernel0 c Set.univ _ _ _ _ _ _ _ _ _ (winBlock0 V c 0 t) (winBlock0 V c 1 t) (winBlock0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem projObligation0 (c : Dev nD) : BodyObligation (projDat0 (F := F) V c) (defs₀ (F := F)) Variants.none () Set.univ := fun t => by
  rw [bigSep_W0, bigSep_W0]
  exact projBody0 V c t

end Cert.Kernel.Gru

end
-- ==== Proof.K.Proj1Data.lean ====
/- A projection  x · Wᵀ + b  as a pallas_call (number 1 of @main's three kernel regions): the data of its pipeline.
   Grid 8 × 6. At point (i, j) the body reads rows 1024·i … of the activations (all 2048 columns),
   columns 1024·j … of the transposed weight (all 2048 rows) and entries 1024·j … of the bias, and stores the
   1024 × 1024 block  (block of x) · (block of Wᵀ) + (bias row, repeated down the rows)  whole.
   Stated at a parameter V, the buffer contents when the region is entered. -/
import proofs.«152705_j64793876628224_1_alg».proof.Proof.Gen.Kernel.Launch
import proofs.«152705_j64793876628224_1_alg».proof.Proof.Gen.Kernel.Skeleton
import proofs.«152705_j64793876628224_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- Window w's block at grid point t, read off its array as the region finds it. -/
def winBlock1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's four whole-buffer accesses: the activations' block, the weight's block, the bias' block, the result's block. -/
abbrev actRect1 : Rect S1024x2048 := Rect.unit (s := S1024x2048) ![0, 0] S1024x2048.size inb_S1024x2048_S1024x2048_0_0
abbrev wgtRect1 : Rect S2048x1024 := Rect.unit (s := S2048x1024) ![0, 0] S2048x1024.size inb_S2048x1024_S2048x1024_0_0
abbrev biasRect1 : Rect S1024 := Rect.unit (s := S1024) ![0] S1024.size inb_S1024_S1024_0
abbrev resRect1 : Rect S1024x1024 := Rect.unit (s := S1024x1024) ![0, 0] S1024x1024.size inb_S1024x1024_S1024x1024_0_0

/-- What the body leaves in the result window's staging buffer, from the three input blocks: its one store, of the
    product-plus-bias payload, as a single piece. -/
def projOut1 (x0 : Vec F S1024x2048 .f32) (x1 : Vec F S2048x1024 .bf16) (x2 : Vec F S1024 .f32) : Vec F S1024x1024 .f32 :=
  View.canon [⟨resRect1, k1_pay1 (View.ld x0 actRect1) (View.ld x1 wgtRect1) (View.ld x2 biasRect1)⟩]

/-- The pipeline's proof data on core c: the arrays as the region finds them; after the body at point t each input's
    buffer still at its block and the result's at projOut of the three input blocks; the invariant is the scoped rest and
    the generator register, untouched; nothing owed; full shares. -/
def projDat1 (c : Dev nD) : Dat τ (Elt F) Unit ℕ (UR sig nD τ) ℕ cfg1 c where
  A w := V c (Pipeline.arrRef spec1 w)
  after w t := match w with
    | ⟨0, _⟩ => winBlock1 V c 0 t
    | ⟨1, _⟩ => winBlock1 V c 1 t
    | ⟨2, _⟩ => winBlock1 V c 2 t
    | ⟨3, _⟩ => projOut1 (winBlock1 V c 0 t) (winBlock1 V c 1 t) (winBlock1 V c 2 t)
  Φ _ := Pipeline.ΦA spec1 c
  q _ := fullShare
  owed _ := 0

theorem projDat1_A (c : Dev nD) (w : Fin cfg1.W) : (projDat1 V c).A w = V c (Pipeline.arrRef spec1 w) := by
  dsimp only [projDat1]

theorem projDat1_after0 (c : Dev nD) (t : Fin cfg1.N) : (projDat1 V c).after 0 t = winBlock1 V c 0 t := by dsimp only [projDat1]
theorem projDat1_after1 (c : Dev nD) (t : Fin cfg1.N) : (projDat1 V c).after 1 t = winBlock1 V c 1 t := by dsimp only [projDat1]
theorem projDat1_after2 (c : Dev nD) (t : Fin cfg1.N) : (projDat1 V c).after 2 t = winBlock1 V c 2 t := by dsimp only [projDat1]
theorem projDat1_after3 (c : Dev nD) (t : Fin cfg1.N) :
    (projDat1 V c).after 3 t = projOut1 (winBlock1 V c 0 t) (winBlock1 V c 1 t) (winBlock1 V c 2 t) := by dsimp only [projDat1]

end Cert.Kernel.Gru

end
-- ==== Proof.K.Proj1Body.lean ====
/- The projection pallas_call (number 1 of @main's three kernel regions): its body's triple and the pipeline's body obligation.
   On whole staging buffers holding the three input blocks, the body runs to the end, leaves the inputs as they were and the
   result's buffer at projOut1 of them: it loads each input whole, computes, and stores the result block whole (it also
   loads the result's old contents, which it never uses). At every grid point the pipeline hands the body exactly those
   blocks, whether the window was fetched at that point or kept from the point before. -/
import proofs.«152705_j64793876628224_1_alg».proof.Proof.K.Proj1Data

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- An input window's current staging buffer holds its block at every point, fetched there or not, for any proof data whose
    array is V's and whose body leaves the block in place. -/
theorem projBefore1_0_of {c : Dev nD} (dat : Dat τ (Elt F) Unit ℕ (UR sig nD τ) ℕ cfg1 c) (hA : dat.A 0 = V c (Pipeline.arrRef spec1 0))
    (hafter : ∀ t, dat.after 0 t = winBlock1 V c 0 t) (t : Fin cfg1.N) (d) : dat.before 0 t d = winBlock1 V c 0 t :=
  (dat.before_in_eq_fetched 0 rfl (fun _ => rfl) (fun _ _ _ => rfl) (fun t => by rw [hafter]; unfold Dat.blockOf winBlock1; rw [hA]; try rfl) t d).trans
    (by unfold Dat.fetched Dat.blockOf winBlock1; rw [hA]; try rfl)
theorem projBefore1_1_of {c : Dev nD} (dat : Dat τ (Elt F) Unit ℕ (UR sig nD τ) ℕ cfg1 c) (hA : dat.A 1 = V c (Pipeline.arrRef spec1 1))
    (hafter : ∀ t, dat.after 1 t = winBlock1 V c 1 t) (t : Fin cfg1.N) (d) : dat.before 1 t d = winBlock1 V c 1 t :=
  (dat.before_in_eq_fetched 1 rfl (fun _ => rfl) (fun _ _ _ => rfl) (fun t => by rw [hafter]; unfold Dat.blockOf winBlock1; rw [hA]; try rfl) t d).trans
    (by unfold Dat.fetched Dat.blockOf winBlock1; rw [hA]; try rfl)
theorem projBefore1_2_of {c : Dev nD} (dat : Dat τ (Elt F) Unit ℕ (UR sig nD τ) ℕ cfg1 c) (hA : dat.A 2 = V c (Pipeline.arrRef spec1 2))
    (hafter : ∀ t, dat.after 2 t = winBlock1 V c 2 t) (t : Fin cfg1.N) (d) : dat.before 2 t d = winBlock1 V c 2 t :=
  (dat.before_in_eq_fetched 2 rfl (fun _ => rfl) (fun _ _ _ => rfl) (fun t => by rw [hafter]; unfold Dat.blockOf winBlock1; rw [hA]; try rfl) t d).trans
    (by unfold Dat.fetched Dat.blockOf winBlock1; rw [hA]; try rfl)

/-- The one store covers the result's buffer. -/
theorem projCover1 (p0 : Vec F S1024x1024 .f32) (y : S1024x1024.Idx) :
    ∃ pc ∈ ([⟨resRect1, p0⟩] : List (View.Piece (Elt F) S1024x1024 .f32)), y ∈ pc.1.set :=
  View.cover_of_tiled [⟨resRect1, p0⟩] S1024x1024.size (by rfl) y

set_option maxHeartbeats 1000000 in
/-- The body's triple on whole staging memrefs. -/
theorem projKernel1 (c : Dev nD) (E : Set ℕ) (i : grid1.Coords)
    (arg2 : Memref sig .tc .vmem S1024x2048 .f32) (harg2 : arg2.IsWhole) (arg3 : Memref sig .tc .vmem S2048x1024 .bf16) (harg3 : arg3.IsWhole)
    (arg4 : Memref sig .tc .vmem S1024 .f32) (harg4 : arg4.IsWhole) (arg5 : Memref sig .tc .vmem S1024x1024 .f32) (harg5 : arg5.IsWhole)
    (x0 : Vec F S1024x2048 .f32) (x1 : Vec F S2048x1024 .bf16) (x2 : Vec F S1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (projOut1 x0 x1 x2)) -∗ K ⟨⟩))
      ⊢ wp frame (wpE (defs₀ (F := F)) Variants.none c none) E (cc1__matmul_bias_kernel i arg2 harg2 arg3 harg3 arg4 harg4 arg5 harg5) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover1 _)

theorem projBefore1_0 (c : Dev nD) (t : Fin cfg1.N) (d) : (projDat1 V c).before 0 t d = winBlock1 V c 0 t :=
  projBefore1_0_of V (projDat1 V c) (projDat1_A V c 0) (projDat1_after0 V c) t d
theorem projBefore1_1 (c : Dev nD) (t : Fin cfg1.N) (d) : (projDat1 V c).before 1 t d = winBlock1 V c 1 t :=
  projBefore1_1_of V (projDat1 V c) (projDat1_A V c 1) (projDat1_after1 V c) t d
theorem projBefore1_2 (c : Dev nD) (t : Fin cfg1.N) (d) : (projDat1 V c).before 2 t d = winBlock1 V c 2 t :=
  projBefore1_2_of V (projDat1 V c) (projDat1_A V c 2) (projDat1_after2 V c) t d

/-- What the body is called with at point t, the windows one by one, -/
def projPre1 (c : Dev nD) (t : Fin cfg1.N) : sProp 𝕄 :=
  iprop((projDat1 V c).Φ t.castSucc ∗ (projDat1 V c).owesAt () t.castSucc
    ∗ (∃ d, owns (c : Thread nD τ) (st1_0 t) fullShare ((projDat1 V c).before 0 t d))
    ∗ (∃ d, owns (c : Thread nD τ) (st1_1 t) fullShare ((projDat1 V c).before 1 t d))
    ∗ (∃ d, owns (c : Thread nD τ) (st1_2 t) fullShare ((projDat1 V c).before 2 t d))
    ∗ (∃ d, owns (c : Thread nD τ) (st1_3 t) fullShare ((projDat1 V c).before 3 t d)))

/-- and what it returns. -/
def projPost1 (c : Dev nD) (t : Fin cfg1.N) : sProp 𝕄 :=
  iprop((projDat1 V c).Φ t.succ ∗ (projDat1 V c).owesAt () t.succ
    ∗ owns (c : Thread nD τ) (st1_0 t) fullShare ((projDat1 V c).after 0 t)
    ∗ owns (c : Thread nD τ) (st1_1 t) fullShare ((projDat1 V c).after 1 t)
    ∗ owns (c : Thread nD τ) (st1_2 t) fullShare ((projDat1 V c).after 2 t)
    ∗ owns (c : Thread nD τ) (st1_3 t) fullShare ((projDat1 V c).after 3 t))

/-- The body at any point: the inputs' memrefs hold their blocks, so the triple applies; the invariant and the core's
    dues pass through unread. -/
theorem projBody1 (c : Dev nD) (t : Fin cfg1.N) :
    projPre1 V c t ⊢ wp frame (wpE (defs₀ (F := F)) Variants.none c none) Set.univ (bodyAt1 t) (fun _ => projPost1 V c t) := by
  unfold projPre1 projPost1 bodyAt1
  simp only [projBefore1_0, projBefore1_1, projBefore1_2]
  rw [show (projDat1 V c).Φ t.succ = (projDat1 V c).Φ t.castSucc from rfl,
    show (projDat1 V c).owesAt () t.succ = (projDat1 V c).owesAt () t.castSucc from rfl,
    projDat1_after0, projDat1_after1, projDat1_after2, projDat1_after3]
  iintro ⟨HΦ, Ho, ⟨%d0, H0⟩, ⟨%d1, H1⟩, ⟨%d2, H2⟩, ⟨%d3, H3⟩⟩
  iapply (projKernel1 c Set.univ _ _ _ _ _ _ _ _ _ (winBlock1 V c 0 t) (winBlock1 V c 1 t) (winBlock1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem projObligation1 (c : Dev nD) : BodyObligation (projDat1 (F := F) V c) (defs₀ (F := F)) Variants.none () Set.univ := fun t => by
  rw [bigSep_W1, bigSep_W1]
  exact projBody1 V c t

end Cert.Kernel.Gru

end
-- ==== Proof.K.CellData.lean ====
/- The gating pallas_call (the third): the data of its pipeline.
   Grid 32. At point t the body reads rows 256·t … of both tables of gate pre-activations (all 6144 columns each) and of the
   old hidden state (2048 columns), takes the three 2048-column gate slices of each table, and stores the 256 × 2048 block of
   the new hidden state whole.  Stated at a parameter V, the buffer contents when the region is entered. -/
import proofs.«152705_j64793876628224_1_alg».proof.Proof.Gen.Kernel.Launch
import proofs.«152705_j64793876628224_1_alg».proof.Proof.Gen.Kernel.Skeleton
import proofs.«152705_j64793876628224_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- Window w's block at grid point t, read off its array as the region finds it. -/
def winBlock2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's accesses: the reset, update and candidate column slices of a table's block, and a whole 256 × 2048 block. -/
abbrev resetRect : Rect S256x6144 := Rect.unit (s := S256x6144) ![0, 0] S256x2048.size inb_S256x6144_S256x2048_0_0
abbrev updateRect : Rect S256x6144 := Rect.unit (s := S256x6144) ![0, 2048] S256x2048.size inb_S256x6144_S256x2048_0_2048
abbrev candRect : Rect S256x6144 := Rect.unit (s := S256x6144) ![0, 4096] S256x2048.size inb_S256x6144_S256x2048_0_4096
abbrev stateRect : Rect S256x2048 := Rect.unit (s := S256x2048) ![0, 0] S256x2048.size inb_S256x2048_S256x2048_0_0

/-- What the body leaves in the new state's staging buffer, from the three input blocks: its one store, of the gating
    payload over the six gate slices and the old state, as a single piece. -/
def cellOut2 (x0 x1 : Vec F S256x6144 .f32) (x2 : Vec F S256x2048 .f32) : Vec F S256x2048 .f32 :=
  View.canon [⟨stateRect, k2_pay1 (View.ld x0 resetRect) (View.ld x0 updateRect) (View.ld x0 candRect)
    (View.ld x1 resetRect) (View.ld x1 updateRect) (View.ld x1 candRect) (View.ld x2 stateRect)⟩]

/-- The pipeline's proof data on core c: the arrays as the region finds them; after the body at point t each input's
    buffer still at its block and the new state's at cellOut2 of the three input blocks; the invariant is the scoped rest and
    the generator register, untouched; nothing owed; full shares. -/
def cellDat2 (c : Dev nD) : Dat τ (Elt F) Unit ℕ (UR sig nD τ) ℕ cfg2 c where
  A w := V c (Pipeline.arrRef spec2 w)
  after w t := match w with
    | ⟨0, _⟩ => winBlock2 V c 0 t
    | ⟨1, _⟩ => winBlock2 V c 1 t
    | ⟨2, _⟩ => winBlock2 V c 2 t
    | ⟨3, _⟩ => cellOut2 (winBlock2 V c 0 t) (winBlock2 V c 1 t) (winBlock2 V c 2 t)
  Φ _ := Pipeline.ΦA spec2 c
  q _ := fullShare
  owed _ := 0

theorem cellDat2_A (c : Dev nD) (w : Fin cfg2.W) : (cellDat2 V c).A w = V c (Pipeline.arrRef spec2 w) := by
  dsimp only [cellDat2]

theorem cellDat2_after0 (c : Dev nD) (t : Fin cfg2.N) : (cellDat2 V c).after 0 t = winBlock2 V c 0 t := by dsimp only [cellDat2]
theorem cellDat2_after1 (c : Dev nD) (t : Fin cfg2.N) : (cellDat2 V c).after 1 t = winBlock2 V c 1 t := by dsimp only [cellDat2]
theorem cellDat2_after2 (c : Dev nD) (t : Fin cfg2.N) : (cellDat2 V c).after 2 t = winBlock2 V c 2 t := by dsimp only [cellDat2]
theorem cellDat2_after3 (c : Dev nD) (t : Fin cfg2.N) :
    (cellDat2 V c).after 3 t = cellOut2 (winBlock2 V c 0 t) (winBlock2 V c 1 t) (winBlock2 V c 2 t) := by dsimp only [cellDat2]

end Cert.Kernel.Gru

end
-- ==== Proof.K.CellBody.lean ====
/- The gating pallas_call: its body's triple and the pipeline's body obligation.
   On whole staging buffers holding the two tables' blocks and the old state's block, the body runs to the end, leaves the
   inputs as they were and the new state's buffer at cellOut2 of them: six slice loads, one whole load, the pointwise
   gating, one whole store (and a load of the output's old contents, never used). At every grid point the pipeline hands the
   body exactly those blocks. -/
import proofs.«152705_j64793876628224_1_alg».proof.Proof.K.CellData

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- An input window's current staging buffer holds its block at every point, for any proof data whose array is V's and
    whose body leaves the block in place. -/
theorem cellBefore_0_of {c : Dev nD} (dat : Dat τ (Elt F) Unit ℕ (UR sig nD τ) ℕ cfg2 c) (hA : dat.A 0 = V c (Pipeline.arrRef spec2 0))
    (hafter : ∀ t, dat.after 0 t = winBlock2 V c 0 t) (t : Fin cfg2.N) (d) : dat.before 0 t d = winBlock2 V c 0 t :=
  (dat.before_in_eq_fetched 0 rfl (fun _ => rfl) (fun _ _ _ => rfl) (fun t => by rw [hafter]; unfold Dat.blockOf winBlock2; rw [hA]; try rfl) t d).trans
    (by unfold Dat.fetched Dat.blockOf winBlock2; rw [hA]; try rfl)
theorem cellBefore_1_of {c : Dev nD} (dat : Dat τ (Elt F) Unit ℕ (UR sig nD τ) ℕ cfg2 c) (hA : dat.A 1 = V c (Pipeline.arrRef spec2 1))
    (hafter : ∀ t, dat.after 1 t = winBlock2 V c 1 t) (t : Fin cfg2.N) (d) : dat.before 1 t d = winBlock2 V c 1 t :=
  (dat.before_in_eq_fetched 1 rfl (fun _ => rfl) (fun _ _ _ => rfl) (fun t => by rw [hafter]; unfold Dat.blockOf winBlock2; rw [hA]; try rfl) t d).trans
    (by unfold Dat.fetched Dat.blockOf winBlock2; rw [hA]; try rfl)
theorem cellBefore_2_of {c : Dev nD} (dat : Dat τ (Elt F) Unit ℕ (UR sig nD τ) ℕ cfg2 c) (hA : dat.A 2 = V c (Pipeline.arrRef spec2 2))
    (hafter : ∀ t, dat.after 2 t = winBlock2 V c 2 t) (t : Fin cfg2.N) (d) : dat.before 2 t d = winBlock2 V c 2 t :=
  (dat.before_in_eq_fetched 2 rfl (fun _ => rfl) (fun _ _ _ => rfl) (fun t => by rw [hafter]; unfold Dat.blockOf winBlock2; rw [hA]; try rfl) t d).trans
    (by unfold Dat.fetched Dat.blockOf winBlock2; rw [hA]; try rfl)

/-- The one store covers the new state's buffer. -/
theorem cellCover (p0 : Vec F S256x2048 .f32) (y : S256x2048.Idx) :
    ∃ pc ∈ ([⟨stateRect, p0⟩] : List (View.Piece (Elt F) S256x2048 .f32)), y ∈ pc.1.set :=
  View.cover_of_tiled [⟨stateRect, p0⟩] S256x2048.size (by rfl) y

set_option maxHeartbeats 1000000 in
/-- The body's triple on whole staging memrefs. -/
theorem cellKernel (c : Dev nD) (E : Set ℕ) (i : grid2.Coords)
    (arg1 : Memref sig .tc .vmem S256x6144 .f32) (harg1 : arg1.IsWhole) (arg2 : Memref sig .tc .vmem S256x6144 .f32) (harg2 : arg2.IsWhole)
    (arg3 : Memref sig .tc .vmem S256x2048 .f32) (harg3 : arg3.IsWhole) (arg4 : Memref sig .tc .vmem S256x2048 .f32) (harg4 : arg4.IsWhole)
    (x0 x1 : Vec F S256x6144 .f32) (x2 : Vec F S256x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (cellOut2 x0 x1 x2)) -∗ K ⟨⟩))
      ⊢ wp frame (wpE (defs₀ (F := F)) Variants.none c none) E (cc2__gating_kernel i arg1 harg1 arg2 harg2 arg3 harg3 arg4 harg4) K := by
  simp only [cc2__gating_kernel_eq_skeleton]; unfold cc2__gating_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cellCover _)

theorem cellBefore_0 (c : Dev nD) (t : Fin cfg2.N) (d) : (cellDat2 V c).before 0 t d = winBlock2 V c 0 t :=
  cellBefore_0_of V (cellDat2 V c) (cellDat2_A V c 0) (cellDat2_after0 V c) t d
theorem cellBefore_1 (c : Dev nD) (t : Fin cfg2.N) (d) : (cellDat2 V c).before 1 t d = winBlock2 V c 1 t :=
  cellBefore_1_of V (cellDat2 V c) (cellDat2_A V c 1) (cellDat2_after1 V c) t d
theorem cellBefore_2 (c : Dev nD) (t : Fin cfg2.N) (d) : (cellDat2 V c).before 2 t d = winBlock2 V c 2 t :=
  cellBefore_2_of V (cellDat2 V c) (cellDat2_A V c 2) (cellDat2_after2 V c) t d

/-- What the body is called with at point t, the windows one by one, -/
def cellPre (c : Dev nD) (t : Fin cfg2.N) : sProp 𝕄 :=
  iprop((cellDat2 V c).Φ t.castSucc ∗ (cellDat2 V c).owesAt () t.castSucc
    ∗ (∃ d, owns (c : Thread nD τ) (st2_0 t) fullShare ((cellDat2 V c).before 0 t d))
    ∗ (∃ d, owns (c : Thread nD τ) (st2_1 t) fullShare ((cellDat2 V c).before 1 t d))
    ∗ (∃ d, owns (c : Thread nD τ) (st2_2 t) fullShare ((cellDat2 V c).before 2 t d))
    ∗ (∃ d, owns (c : Thread nD τ) (st2_3 t) fullShare ((cellDat2 V c).before 3 t d)))

/-- and what it returns. -/
def cellPost (c : Dev nD) (t : Fin cfg2.N) : sProp 𝕄 :=
  iprop((cellDat2 V c).Φ t.succ ∗ (cellDat2 V c).owesAt () t.succ
    ∗ owns (c : Thread nD τ) (st2_0 t) fullShare ((cellDat2 V c).after 0 t)
    ∗ owns (c : Thread nD τ) (st2_1 t) fullShare ((cellDat2 V c).after 1 t)
    ∗ owns (c : Thread nD τ) (st2_2 t) fullShare ((cellDat2 V c).after 2 t)
    ∗ owns (c : Thread nD τ) (st2_3 t) fullShare ((cellDat2 V c).after 3 t))

/-- The body at any point: the inputs' memrefs hold their blocks, so the triple applies; the invariant and the core's
    dues pass through unread. -/
theorem cellBody (c : Dev nD) (t : Fin cfg2.N) :
    cellPre V c t ⊢ wp frame (wpE (defs₀ (F := F)) Variants.none c none) Set.univ (bodyAt2 t) (fun _ => cellPost V c t) := by
  unfold cellPre cellPost bodyAt2
  simp only [cellBefore_0, cellBefore_1, cellBefore_2]
  rw [show (cellDat2 V c).Φ t.succ = (cellDat2 V c).Φ t.castSucc from rfl,
    show (cellDat2 V c).owesAt () t.succ = (cellDat2 V c).owesAt () t.castSucc from rfl,
    cellDat2_after0, cellDat2_after1, cellDat2_after2, cellDat2_after3]
  iintro ⟨HΦ, Ho, ⟨%d0, H0⟩, ⟨%d1, H1⟩, ⟨%d2, H2⟩, ⟨%d3, H3⟩⟩
  iapply (cellKernel c Set.univ _ _ _ _ _ _ _ _ _ (winBlock2 V c 0 t) (winBlock2 V c 1 t) (winBlock2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem cellObligation (c : Dev nD) : BodyObligation (cellDat2 (F := F) V c) (defs₀ (F := F)) Variants.none () Set.univ := fun t => by
  rw [bigSep_W2, bigSep_W2]
  exact cellBody V c t

end Cert.Kernel.Gru

end
-- ==== Proof.K.Run.lean ====
/- The run of @main: eight host operations (four joins of three tables, two transpositions, two changes of format), then
   the input projection, the hidden projection and the gating, each a pipelined kernel region.
   The buffers' contents are followed from boundary to boundary: at launch; after the host operations; after each region
   (that region's output array at what its write-backs leave, every other buffer untouched). Each region enters from the
   previous boundary's contents and its proof data are stated at them. The launch then gives: every weakly fair execution
   terminates, and at the end every unscoped buffer holds the last boundary's contents; in particular the new hidden state's
   buffer holds the gating region's output array and each argument holds what it was launched with. -/
import proofs.«152705_j64793876628224_1_alg».proof.Proof.K.Proj0Body
import proofs.«152705_j64793876628224_1_alg».proof.Proof.K.Proj1Body
import proofs.«152705_j64793876628224_1_alg».proof.Proof.K.CellBody

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m (c, b)
/-- After the host operations (the input projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After pallas_call 0: its arrays at what the pipeline leaves (an input as entered, the output's write-backs folded),
    every other buffer as entered. -/
def W2 (c : Dev nD) : Valuation τ sig (Elt F) :=
  Pipeline.withArrays spec0 c (W1 m c) fun w => (projDat0 (V1 m) c).arrAt w cfg0.N
theorem W2_arr (c : Dev nD) (w : Fin cfg0.W) :
    W2 m c (Proc.devRef .tc (Pipeline.arrRef spec0 w)) = (projDat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem exitArr0 (c : Dev nD) (w : Fin cfg0.W) : (projDat0 (V1 m) c).arrAt w cfg0.N = V2 m c (Pipeline.arrRef spec0 w) :=
  (W2_arr m c w).symm
theorem exitRest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After pallas_call 1: its arrays at what the pipeline leaves (an input as entered, the output's write-backs folded),
    every other buffer as entered. -/
def W3 (c : Dev nD) : Valuation τ sig (Elt F) :=
  Pipeline.withArrays spec1 c (W2 m c) fun w => (projDat1 (V2 m) c).arrAt w cfg1.N
theorem W3_arr (c : Dev nD) (w : Fin cfg1.W) :
    W3 m c (Proc.devRef .tc (Pipeline.arrRef spec1 w)) = (projDat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem exitArr1 (c : Dev nD) (w : Fin cfg1.W) : (projDat1 (V2 m) c).arrAt w cfg1.N = V3 m c (Pipeline.arrRef spec1 w) :=
  (W3_arr m c w).symm
theorem exitRest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After pallas_call 2: its arrays at what the pipeline leaves (an input as entered, the output's write-backs folded),
    every other buffer as entered. -/
def W4 (c : Dev nD) : Valuation τ sig (Elt F) :=
  Pipeline.withArrays spec2 c (W3 m c) fun w => (cellDat2 (V3 m) c).arrAt w cfg2.N
theorem W4_arr (c : Dev nD) (w : Fin cfg2.W) :
    W4 m c (Proc.devRef .tc (Pipeline.arrRef spec2 w)) = (cellDat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem exitArr2 (c : Dev nD) (w : Fin cfg2.W) : (cellDat2 (V3 m) c).arrAt w cfg2.N = V4 m c (Pipeline.arrRef spec2 w) :=
  (W4_arr m c w).symm
theorem exitRest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## No item writes an argument -/

/-- The references the host operations write. -/
abbrev hostWritten : List (Ref sig .tc) := [main_v0, main_v1, main_v2, main_v3, main_v4, main_v5, main_v6, main_v7]
theorem hostOps0_writes : (hostOps0 : List (HloOp τ sig (Elt F))).Forall fun op => op.writes ⊆ (hostWritten.map (Proc.devRef (τ := τ) .tc)).toFinset := by
  simp only [List.Forall, StableHlo.unary_writes, StableHlo.nary_writes, Finset.singleton_subset_iff, List.mem_toFinset]
  refine ⟨?_, ?_, ?_, ?_, ?_, ?_, ?_, ?_⟩ <;> exact List.mem_map_of_mem (by decide)
theorem W1_of_not_written (c : Dev nD) (r : Ref sig .tc) (h : r ∉ hostWritten) : W1 m c (Proc.devRef .tc r) = W0 m c (Proc.devRef .tc r) :=
  StableHlo.after_of_writes_sub hostOps0 _ hostOps0_writes h

theorem atEnd_main_arg0 (c : Dev nD) : W4 m c (Proc.devRef .tc main_arg0) = m ((c : Thread nD τ).loc main_arg0) :=
  (W4_of_ne m c main_arg0 (by decide)).trans <| (W3_of_ne m c main_arg0 (by decide)).trans <|
    ((W2_arr m c 0).trans (((projDat0 (V1 m) c).arrAt_in 0 rfl _).trans (projDat0_A (V1 m) c 0))).trans <| (W1_of_not_written m c main_arg0 (by decide)).trans rfl
theorem atEnd_main_arg1 (c : Dev nD) : W4 m c (Proc.devRef .tc main_arg1) = m ((c : Thread nD τ).loc main_arg1) :=
  ((W4_arr m c 2).trans (((cellDat2 (V3 m) c).arrAt_in 2 rfl _).trans (cellDat2_A (V3 m) c 2))).trans <| ((W3_arr m c 0).trans (((projDat1 (V2 m) c).arrAt_in 0 rfl _).trans (projDat1_A (V2 m) c 0))).trans <|
    (W2_of_ne m c main_arg1 (by decide)).trans <| (W1_of_not_written m c main_arg1 (by decide)).trans rfl
theorem atEnd_main_arg2 (c : Dev nD) : W4 m c (Proc.devRef .tc main_arg2) = m ((c : Thread nD τ).loc main_arg2) :=
  (W4_of_ne m c main_arg2 (by decide)).trans <| (W3_of_ne m c main_arg2 (by decide)).trans <|
    (W2_of_ne m c main_arg2 (by decide)).trans <| (W1_of_not_written m c main_arg2 (by decide)).trans rfl
theorem atEnd_main_arg3 (c : Dev nD) : W4 m c (Proc.devRef .tc main_arg3) = m ((c : Thread nD τ).loc main_arg3) :=
  (W4_of_ne m c main_arg3 (by decide)).trans <| (W3_of_ne m c main_arg3 (by decide)).trans <|
    (W2_of_ne m c main_arg3 (by decide)).trans <| (W1_of_not_written m c main_arg3 (by decide)).trans rfl
theorem atEnd_main_arg4 (c : Dev nD) : W4 m c (Proc.devRef .tc main_arg4) = m ((c : Thread nD τ).loc main_arg4) :=
  (W4_of_ne m c main_arg4 (by decide)).trans <| (W3_of_ne m c main_arg4 (by decide)).trans <|
    (W2_of_ne m c main_arg4 (by decide)).trans <| (W1_of_not_written m c main_arg4 (by decide)).trans rfl
theorem atEnd_main_arg5 (c : Dev nD) : W4 m c (Proc.devRef .tc main_arg5) = m ((c : Thread nD τ).loc main_arg5) :=
  (W4_of_ne m c main_arg5 (by decide)).trans <| (W3_of_ne m c main_arg5 (by decide)).trans <|
    (W2_of_ne m c main_arg5 (by decide)).trans <| (W1_of_not_written m c main_arg5 (by decide)).trans rfl
theorem atEnd_main_arg6 (c : Dev nD) : W4 m c (Proc.devRef .tc main_arg6) = m ((c : Thread nD τ).loc main_arg6) :=
  (W4_of_ne m c main_arg6 (by decide)).trans <| (W3_of_ne m c main_arg6 (by decide)).trans <|
    (W2_of_ne m c main_arg6 (by decide)).trans <| (W1_of_not_written m c main_arg6 (by decide)).trans rfl
theorem atEnd_main_arg7 (c : Dev nD) : W4 m c (Proc.devRef .tc main_arg7) = m ((c : Thread nD τ).loc main_arg7) :=
  (W4_of_ne m c main_arg7 (by decide)).trans <| (W3_of_ne m c main_arg7 (by decide)).trans <|
    (W2_of_ne m c main_arg7 (by decide)).trans <| (W1_of_not_written m c main_arg7 (by decide)).trans rfl
theorem atEnd_main_arg8 (c : Dev nD) : W4 m c (Proc.devRef .tc main_arg8) = m ((c : Thread nD τ).loc main_arg8) :=
  (W4_of_ne m c main_arg8 (by decide)).trans <| (W3_of_ne m c main_arg8 (by decide)).trans <|
    (W2_of_ne m c main_arg8 (by decide)).trans <| (W1_of_not_written m c main_arg8 (by decide)).trans rfl
theorem atEnd_main_arg9 (c : Dev nD) : W4 m c (Proc.devRef .tc main_arg9) = m ((c : Thread nD τ).loc main_arg9) :=
  (W4_of_ne m c main_arg9 (by decide)).trans <| (W3_of_ne m c main_arg9 (by decide)).trans <|
    (W2_of_ne m c main_arg9 (by decide)).trans <| (W1_of_not_written m c main_arg9 (by decide)).trans rfl
theorem atEnd_main_arg10 (c : Dev nD) : W4 m c (Proc.devRef .tc main_arg10) = m ((c : Thread nD τ).loc main_arg10) :=
  (W4_of_ne m c main_arg10 (by decide)).trans <| (W3_of_ne m c main_arg10 (by decide)).trans <|
    (W2_of_ne m c main_arg10 (by decide)).trans <| (W1_of_not_written m c main_arg10 (by decide)).trans rfl
theorem atEnd_main_arg11 (c : Dev nD) : W4 m c (Proc.devRef .tc main_arg11) = m ((c : Thread nD τ).loc main_arg11) :=
  (W4_of_ne m c main_arg11 (by decide)).trans <| (W3_of_ne m c main_arg11 (by decide)).trans <|
    (W2_of_ne m c main_arg11 (by decide)).trans <| (W1_of_not_written m c main_arg11 (by decide)).trans rfl
theorem atEnd_main_arg12 (c : Dev nD) : W4 m c (Proc.devRef .tc main_arg12) = m ((c : Thread nD τ).loc main_arg12) :=
  (W4_of_ne m c main_arg12 (by decide)).trans <| (W3_of_ne m c main_arg12 (by decide)).trans <|
    (W2_of_ne m c main_arg12 (by decide)).trans <| (W1_of_not_written m c main_arg12 (by decide)).trans rfl
theorem atEnd_main_arg13 (c : Dev nD) : W4 m c (Proc.devRef .tc main_arg13) = m ((c : Thread nD τ).loc main_arg13) :=
  (W4_of_ne m c main_arg13 (by decide)).trans <| (W3_of_ne m c main_arg13 (by decide)).trans <|
    (W2_of_ne m c main_arg13 (by decide)).trans <| (W1_of_not_written m c main_arg13 (by decide)).trans rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => projDat0 (V1 m) c
  | ⟨1, _⟩ => fun c => projDat1 (V2 m) c
  | ⟨2, _⟩ => fun c => cellDat2 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
/-- The host operations as a segment from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Pallas call 0 over the thread state: entered from every unscoped buffer at W1, left at W2. Its arrays are split
    out of the unscoped buffers and put back at the exit contents; the generator register goes into the invariant and comes
    out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (projObligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at W2, left at W3. Its arrays are split
    out of the unscoped buffers and put back at the exit contents; the generator register goes into the invariant and comes
    out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (projObligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at W3, left at W4. Its arrays are split
    out of the unscoped buffers and put back at the exit contents; the generator register goes into the invariant and comes
    out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (cellObligation (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (exitArr2 m c) (exitRest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hostSeg m), .region (reg0 m), .region (reg1 m), .region (reg2 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and at
    the end the new hidden state's buffer holds the last boundary's contents and every argument what it was launched with. -/
theorem run_main (ρ : Dev nD → PrngReg) : θ_run defs (onTc (τ := τ) (main (F := F))) ⟨m, fun _ => 0, ρ⟩ (fun r => ∀ c : Dev nD,
      r.2.mem ((c.tc : Thread nD τ).loc main_v10) = W4 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v10 (by decide)),
       (h c _ (mem_uc main_arg0 (by decide))).trans (atEnd_main_arg0 m c),
       (h c _ (mem_uc main_arg1 (by decide))).trans (atEnd_main_arg1 m c),
       (h c _ (mem_uc main_arg2 (by decide))).trans (atEnd_main_arg2 m c),
       (h c _ (mem_uc main_arg3 (by decide))).trans (atEnd_main_arg3 m c),
       (h c _ (mem_uc main_arg4 (by decide))).trans (atEnd_main_arg4 m c),
       (h c _ (mem_uc main_arg5 (by decide))).trans (atEnd_main_arg5 m c),
       (h c _ (mem_uc main_arg6 (by decide))).trans (atEnd_main_arg6 m c),
       (h c _ (mem_uc main_arg7 (by decide))).trans (atEnd_main_arg7 m c),
       (h c _ (mem_uc main_arg8 (by decide))).trans (atEnd_main_arg8 m c),
       (h c _ (mem_uc main_arg9 (by decide))).trans (atEnd_main_arg9 m c),
       (h c _ (mem_uc main_arg10 (by decide))).trans (atEnd_main_arg10 m c),
       (h c _ (mem_uc main_arg11 (by decide))).trans (atEnd_main_arg11 m c),
       (h c _ (mem_uc main_arg12 (by decide))).trans (atEnd_main_arg12 m c),
       (h c _ (mem_uc main_arg13 (by decide))).trans (atEnd_main_arg13 m c)⟩)

end Cert.Kernel.Gru

end
-- ==== Proof.KI.Proj0Data.lean ====
/- A projection  x · Wᵀ + b  as a pallas_call (number 0 of @main's three kernel regions): the data of its pipeline.
   Grid 8 × 6. At point (i, j) the body reads rows 1024·i … of the activations (all 2048 columns),
   columns 1024·j … of the transposed weight (all 2048 rows) and entries 1024·j … of the bias, and stores the
   1024 × 1024 block  (block of x) · (block of Wᵀ) + (bias row, repeated down the rows)  whole.
   Stated at a parameter V, the buffer contents when the region is entered. -/
import proofs.«152705_j64793876628224_1_alg».proof.Proof.Gen.KernelIdeal.Launch
import proofs.«152705_j64793876628224_1_alg».proof.Proof.Gen.KernelIdeal.Skeleton
import proofs.«152705_j64793876628224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- Window w's block at grid point t, read off its array as the region finds it. -/
def winBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's four whole-buffer accesses: the activations' block, the weight's block, the bias' block, the result's block. -/
abbrev actRect0 : Rect S1024x2048 := Rect.unit (s := S1024x2048) ![0, 0] S1024x2048.size inb_S1024x2048_S1024x2048_0_0
abbrev wgtRect0 : Rect S2048x1024 := Rect.unit (s := S2048x1024) ![0, 0] S2048x1024.size inb_S2048x1024_S2048x1024_0_0
abbrev biasRect0 : Rect S1024 := Rect.unit (s := S1024) ![0] S1024.size inb_S1024_S1024_0
abbrev resRect0 : Rect S1024x1024 := Rect.unit (s := S1024x1024) ![0, 0] S1024x1024.size inb_S1024x1024_S1024x1024_0_0

/-- What the body leaves in the result window's staging buffer, from the three input blocks: its one store, of the
    product-plus-bias payload, as a single piece. -/
def projOut0 (x0 : Vec F S1024x2048 .f32) (x1 : Vec F S2048x1024 .bf16) (x2 : Vec F S1024 .f32) : Vec F S1024x1024 .f32 :=
  View.canon [⟨resRect0, k0_pay1 (View.ld x0 actRect0) (View.ld x1 wgtRect0) (View.ld x2 biasRect0)⟩]

/-- The pipeline's proof data on core c: the arrays as the region finds them; after the body at point t each input's
    buffer still at its block and the result's at projOut of the three input blocks; the invariant is the scoped rest and
    the generator register, untouched; nothing owed; full shares. -/
def projDat0 (c : Dev nD) : Dat τ (Elt F) Unit ℕ (UR sig nD τ) ℕ cfg0 c where
  A w := V c (Pipeline.arrRef spec0 w)
  after w t := match w with
    | ⟨0, _⟩ => winBlock0 V c 0 t
    | ⟨1, _⟩ => winBlock0 V c 1 t
    | ⟨2, _⟩ => winBlock0 V c 2 t
    | ⟨3, _⟩ => projOut0 (winBlock0 V c 0 t) (winBlock0 V c 1 t) (winBlock0 V c 2 t)
  Φ _ := Pipeline.ΦA spec0 c
  q _ := fullShare
  owed _ := 0

theorem projDat0_A (c : Dev nD) (w : Fin cfg0.W) : (projDat0 V c).A w = V c (Pipeline.arrRef spec0 w) := by
  dsimp only [projDat0]

theorem projDat0_after0 (c : Dev nD) (t : Fin cfg0.N) : (projDat0 V c).after 0 t = winBlock0 V c 0 t := by dsimp only [projDat0]
theorem projDat0_after1 (c : Dev nD) (t : Fin cfg0.N) : (projDat0 V c).after 1 t = winBlock0 V c 1 t := by dsimp only [projDat0]
theorem projDat0_after2 (c : Dev nD) (t : Fin cfg0.N) : (projDat0 V c).after 2 t = winBlock0 V c 2 t := by dsimp only [projDat0]
theorem projDat0_after3 (c : Dev nD) (t : Fin cfg0.N) :
    (projDat0 V c).after 3 t = projOut0 (winBlock0 V c 0 t) (winBlock0 V c 1 t) (winBlock0 V c 2 t) := by dsimp only [projDat0]

end Cert.KernelIdeal.Gru

end
-- ==== Proof.KI.Proj0Body.lean ====
/- The projection pallas_call (number 0 of @main's three kernel regions): its body's triple and the pipeline's body obligation.
   On whole staging buffers holding the three input blocks, the body runs to the end, leaves the inputs as they were and the
   result's buffer at projOut0 of them: it loads each input whole, computes, and stores the result block whole (it also
   loads the result's old contents, which it never uses). At every grid point the pipeline hands the body exactly those
   blocks, whether the window was fetched at that point or kept from the point before. -/
import proofs.«152705_j64793876628224_1_alg».proof.Proof.KI.Proj0Data

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- An input window's current staging buffer holds its block at every point, fetched there or not, for any proof data whose
    array is V's and whose body leaves the block in place. -/
theorem projBefore0_0_of {c : Dev nD} (dat : Dat τ (Elt F) Unit ℕ (UR sig nD τ) ℕ cfg0 c) (hA : dat.A 0 = V c (Pipeline.arrRef spec0 0))
    (hafter : ∀ t, dat.after 0 t = winBlock0 V c 0 t) (t : Fin cfg0.N) (d) : dat.before 0 t d = winBlock0 V c 0 t :=
  (dat.before_in_eq_fetched 0 rfl (fun _ => rfl) (fun _ _ _ => rfl) (fun t => by rw [hafter]; unfold Dat.blockOf winBlock0; rw [hA]; try rfl) t d).trans
    (by unfold Dat.fetched Dat.blockOf winBlock0; rw [hA]; try rfl)
theorem projBefore0_1_of {c : Dev nD} (dat : Dat τ (Elt F) Unit ℕ (UR sig nD τ) ℕ cfg0 c) (hA : dat.A 1 = V c (Pipeline.arrRef spec0 1))
    (hafter : ∀ t, dat.after 1 t = winBlock0 V c 1 t) (t : Fin cfg0.N) (d) : dat.before 1 t d = winBlock0 V c 1 t :=
  (dat.before_in_eq_fetched 1 rfl (fun _ => rfl) (fun _ _ _ => rfl) (fun t => by rw [hafter]; unfold Dat.blockOf winBlock0; rw [hA]; try rfl) t d).trans
    (by unfold Dat.fetched Dat.blockOf winBlock0; rw [hA]; try rfl)
theorem projBefore0_2_of {c : Dev nD} (dat : Dat τ (Elt F) Unit ℕ (UR sig nD τ) ℕ cfg0 c) (hA : dat.A 2 = V c (Pipeline.arrRef spec0 2))
    (hafter : ∀ t, dat.after 2 t = winBlock0 V c 2 t) (t : Fin cfg0.N) (d) : dat.before 2 t d = winBlock0 V c 2 t :=
  (dat.before_in_eq_fetched 2 rfl (fun _ => rfl) (fun _ _ _ => rfl) (fun t => by rw [hafter]; unfold Dat.blockOf winBlock0; rw [hA]; try rfl) t d).trans
    (by unfold Dat.fetched Dat.blockOf winBlock0; rw [hA]; try rfl)

/-- The one store covers the result's buffer. -/
theorem projCover0 (p0 : Vec F S1024x1024 .f32) (y : S1024x1024.Idx) :
    ∃ pc ∈ ([⟨resRect0, p0⟩] : List (View.Piece (Elt F) S1024x1024 .f32)), y ∈ pc.1.set :=
  View.cover_of_tiled [⟨resRect0, p0⟩] S1024x1024.size (by rfl) y

set_option maxHeartbeats 1000000 in
/-- The body's triple on whole staging memrefs. -/
theorem projKernel0 (c : Dev nD) (E : Set ℕ) (i : grid0.Coords)
    (arg2 : Memref sig .tc .vmem S1024x2048 .f32) (harg2 : arg2.IsWhole) (arg3 : Memref sig .tc .vmem S2048x1024 .bf16) (harg3 : arg3.IsWhole)
    (arg4 : Memref sig .tc .vmem S1024 .f32) (harg4 : arg4.IsWhole) (arg5 : Memref sig .tc .vmem S1024x1024 .f32) (harg5 : arg5.IsWhole)
    (x0 : Vec F S1024x2048 .f32) (x1 : Vec F S2048x1024 .bf16) (x2 : Vec F S1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (projOut0 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover0 _)

theorem projBefore0_0 (c : Dev nD) (t : Fin cfg0.N) (d) : (projDat0 V c).before 0 t d = winBlock0 V c 0 t :=
  projBefore0_0_of V (projDat0 V c) (projDat0_A V c 0) (projDat0_after0 V c) t d
theorem projBefore0_1 (c : Dev nD) (t : Fin cfg0.N) (d) : (projDat0 V c).before 1 t d = winBlock0 V c 1 t :=
  projBefore0_1_of V (projDat0 V c) (projDat0_A V c 1) (projDat0_after1 V c) t d
theorem projBefore0_2 (c : Dev nD) (t : Fin cfg0.N) (d) : (projDat0 V c).before 2 t d = winBlock0 V c 2 t :=
  projBefore0_2_of V (projDat0 V c) (projDat0_A V c 2) (projDat0_after2 V c) t d

/-- What the body is called with at point t, the windows one by one, -/
def projPre0 (c : Dev nD) (t : Fin cfg0.N) : sProp 𝕄 :=
  iprop((projDat0 V c).Φ t.castSucc ∗ (projDat0 V c).owesAt () t.castSucc
    ∗ (∃ d, owns (c : Thread nD τ) (st0_0 t) fullShare ((projDat0 V c).before 0 t d))
    ∗ (∃ d, owns (c : Thread nD τ) (st0_1 t) fullShare ((projDat0 V c).before 1 t d))
    ∗ (∃ d, owns (c : Thread nD τ) (st0_2 t) fullShare ((projDat0 V c).before 2 t d))
    ∗ (∃ d, owns (c : Thread nD τ) (st0_3 t) fullShare ((projDat0 V c).before 3 t d)))

/-- and what it returns. -/
def projPost0 (c : Dev nD) (t : Fin cfg0.N) : sProp 𝕄 :=
  iprop((projDat0 V c).Φ t.succ ∗ (projDat0 V c).owesAt () t.succ
    ∗ owns (c : Thread nD τ) (st0_0 t) fullShare ((projDat0 V c).after 0 t)
    ∗ owns (c : Thread nD τ) (st0_1 t) fullShare ((projDat0 V c).after 1 t)
    ∗ owns (c : Thread nD τ) (st0_2 t) fullShare ((projDat0 V c).after 2 t)
    ∗ owns (c : Thread nD τ) (st0_3 t) fullShare ((projDat0 V c).after 3 t))

/-- The body at any point: the inputs' memrefs hold their blocks, so the triple applies; the invariant and the core's
    dues pass through unread. -/
theorem projBody0 (c : Dev nD) (t : Fin cfg0.N) :
    projPre0 V c t ⊢ wp frame (wpE (defs₀ (F := F)) Variants.none c none) Set.univ (bodyAt0 t) (fun _ => projPost0 V c t) := by
  unfold projPre0 projPost0 bodyAt0
  simp only [projBefore0_0, projBefore0_1, projBefore0_2]
  rw [show (projDat0 V c).Φ t.succ = (projDat0 V c).Φ t.castSucc from rfl,
    show (projDat0 V c).owesAt () t.succ = (projDat0 V c).owesAt () t.castSucc from rfl,
    projDat0_after0, projDat0_after1, projDat0_after2, projDat0_after3]
  iintro ⟨HΦ, Ho, ⟨%d0, H0⟩, ⟨%d1, H1⟩, ⟨%d2, H2⟩, ⟨%d3, H3⟩⟩
  iapply (projKernel0 c Set.univ _ _ _ _ _ _ _ _ _ (winBlock0 V c 0 t) (winBlock0 V c 1 t) (winBlock0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem projObligation0 (c : Dev nD) : BodyObligation (projDat0 (F := F) V c) (defs₀ (F := F)) Variants.none () Set.univ := fun t => by
  rw [bigSep_W0, bigSep_W0]
  exact projBody0 V c t

end Cert.KernelIdeal.Gru

end
-- ==== Proof.KI.Proj1Data.lean ====
/- A projection  x · Wᵀ + b  as a pallas_call (number 1 of @main's three kernel regions): the data of its pipeline.
   Grid 8 × 6. At point (i, j) the body reads rows 1024·i … of the activations (all 2048 columns),
   columns 1024·j … of the transposed weight (all 2048 rows) and entries 1024·j … of the bias, and stores the
   1024 × 1024 block  (block of x) · (block of Wᵀ) + (bias row, repeated down the rows)  whole.
   Stated at a parameter V, the buffer contents when the region is entered. -/
import proofs.«152705_j64793876628224_1_alg».proof.Proof.Gen.KernelIdeal.Launch
import proofs.«152705_j64793876628224_1_alg».proof.Proof.Gen.KernelIdeal.Skeleton
import proofs.«152705_j64793876628224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- Window w's block at grid point t, read off its array as the region finds it. -/
def winBlock1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's four whole-buffer accesses: the activations' block, the weight's block, the bias' block, the result's block. -/
abbrev actRect1 : Rect S1024x2048 := Rect.unit (s := S1024x2048) ![0, 0] S1024x2048.size inb_S1024x2048_S1024x2048_0_0
abbrev wgtRect1 : Rect S2048x1024 := Rect.unit (s := S2048x1024) ![0, 0] S2048x1024.size inb_S2048x1024_S2048x1024_0_0
abbrev biasRect1 : Rect S1024 := Rect.unit (s := S1024) ![0] S1024.size inb_S1024_S1024_0
abbrev resRect1 : Rect S1024x1024 := Rect.unit (s := S1024x1024) ![0, 0] S1024x1024.size inb_S1024x1024_S1024x1024_0_0

/-- What the body leaves in the result window's staging buffer, from the three input blocks: its one store, of the
    product-plus-bias payload, as a single piece. -/
def projOut1 (x0 : Vec F S1024x2048 .f32) (x1 : Vec F S2048x1024 .bf16) (x2 : Vec F S1024 .f32) : Vec F S1024x1024 .f32 :=
  View.canon [⟨resRect1, k1_pay1 (View.ld x0 actRect1) (View.ld x1 wgtRect1) (View.ld x2 biasRect1)⟩]

/-- The pipeline's proof data on core c: the arrays as the region finds them; after the body at point t each input's
    buffer still at its block and the result's at projOut of the three input blocks; the invariant is the scoped rest and
    the generator register, untouched; nothing owed; full shares. -/
def projDat1 (c : Dev nD) : Dat τ (Elt F) Unit ℕ (UR sig nD τ) ℕ cfg1 c where
  A w := V c (Pipeline.arrRef spec1 w)
  after w t := match w with
    | ⟨0, _⟩ => winBlock1 V c 0 t
    | ⟨1, _⟩ => winBlock1 V c 1 t
    | ⟨2, _⟩ => winBlock1 V c 2 t
    | ⟨3, _⟩ => projOut1 (winBlock1 V c 0 t) (winBlock1 V c 1 t) (winBlock1 V c 2 t)
  Φ _ := Pipeline.ΦA spec1 c
  q _ := fullShare
  owed _ := 0

theorem projDat1_A (c : Dev nD) (w : Fin cfg1.W) : (projDat1 V c).A w = V c (Pipeline.arrRef spec1 w) := by
  dsimp only [projDat1]

theorem projDat1_after0 (c : Dev nD) (t : Fin cfg1.N) : (projDat1 V c).after 0 t = winBlock1 V c 0 t := by dsimp only [projDat1]
theorem projDat1_after1 (c : Dev nD) (t : Fin cfg1.N) : (projDat1 V c).after 1 t = winBlock1 V c 1 t := by dsimp only [projDat1]
theorem projDat1_after2 (c : Dev nD) (t : Fin cfg1.N) : (projDat1 V c).after 2 t = winBlock1 V c 2 t := by dsimp only [projDat1]
theorem projDat1_after3 (c : Dev nD) (t : Fin cfg1.N) :
    (projDat1 V c).after 3 t = projOut1 (winBlock1 V c 0 t) (winBlock1 V c 1 t) (winBlock1 V c 2 t) := by dsimp only [projDat1]

end Cert.KernelIdeal.Gru

end
-- ==== Proof.KI.Proj1Body.lean ====
/- The projection pallas_call (number 1 of @main's three kernel regions): its body's triple and the pipeline's body obligation.
   On whole staging buffers holding the three input blocks, the body runs to the end, leaves the inputs as they were and the
   result's buffer at projOut1 of them: it loads each input whole, computes, and stores the result block whole (it also
   loads the result's old contents, which it never uses). At every grid point the pipeline hands the body exactly those
   blocks, whether the window was fetched at that point or kept from the point before. -/
import proofs.«152705_j64793876628224_1_alg».proof.Proof.KI.Proj1Data

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- An input window's current staging buffer holds its block at every point, fetched there or not, for any proof data whose
    array is V's and whose body leaves the block in place. -/
theorem projBefore1_0_of {c : Dev nD} (dat : Dat τ (Elt F) Unit ℕ (UR sig nD τ) ℕ cfg1 c) (hA : dat.A 0 = V c (Pipeline.arrRef spec1 0))
    (hafter : ∀ t, dat.after 0 t = winBlock1 V c 0 t) (t : Fin cfg1.N) (d) : dat.before 0 t d = winBlock1 V c 0 t :=
  (dat.before_in_eq_fetched 0 rfl (fun _ => rfl) (fun _ _ _ => rfl) (fun t => by rw [hafter]; unfold Dat.blockOf winBlock1; rw [hA]; try rfl) t d).trans
    (by unfold Dat.fetched Dat.blockOf winBlock1; rw [hA]; try rfl)
theorem projBefore1_1_of {c : Dev nD} (dat : Dat τ (Elt F) Unit ℕ (UR sig nD τ) ℕ cfg1 c) (hA : dat.A 1 = V c (Pipeline.arrRef spec1 1))
    (hafter : ∀ t, dat.after 1 t = winBlock1 V c 1 t) (t : Fin cfg1.N) (d) : dat.before 1 t d = winBlock1 V c 1 t :=
  (dat.before_in_eq_fetched 1 rfl (fun _ => rfl) (fun _ _ _ => rfl) (fun t => by rw [hafter]; unfold Dat.blockOf winBlock1; rw [hA]; try rfl) t d).trans
    (by unfold Dat.fetched Dat.blockOf winBlock1; rw [hA]; try rfl)
theorem projBefore1_2_of {c : Dev nD} (dat : Dat τ (Elt F) Unit ℕ (UR sig nD τ) ℕ cfg1 c) (hA : dat.A 2 = V c (Pipeline.arrRef spec1 2))
    (hafter : ∀ t, dat.after 2 t = winBlock1 V c 2 t) (t : Fin cfg1.N) (d) : dat.before 2 t d = winBlock1 V c 2 t :=
  (dat.before_in_eq_fetched 2 rfl (fun _ => rfl) (fun _ _ _ => rfl) (fun t => by rw [hafter]; unfold Dat.blockOf winBlock1; rw [hA]; try rfl) t d).trans
    (by unfold Dat.fetched Dat.blockOf winBlock1; rw [hA]; try rfl)

/-- The one store covers the result's buffer. -/
theorem projCover1 (p0 : Vec F S1024x1024 .f32) (y : S1024x1024.Idx) :
    ∃ pc ∈ ([⟨resRect1, p0⟩] : List (View.Piece (Elt F) S1024x1024 .f32)), y ∈ pc.1.set :=
  View.cover_of_tiled [⟨resRect1, p0⟩] S1024x1024.size (by rfl) y

set_option maxHeartbeats 1000000 in
/-- The body's triple on whole staging memrefs. -/
theorem projKernel1 (c : Dev nD) (E : Set ℕ) (i : grid1.Coords)
    (arg2 : Memref sig .tc .vmem S1024x2048 .f32) (harg2 : arg2.IsWhole) (arg3 : Memref sig .tc .vmem S2048x1024 .bf16) (harg3 : arg3.IsWhole)
    (arg4 : Memref sig .tc .vmem S1024 .f32) (harg4 : arg4.IsWhole) (arg5 : Memref sig .tc .vmem S1024x1024 .f32) (harg5 : arg5.IsWhole)
    (x0 : Vec F S1024x2048 .f32) (x1 : Vec F S2048x1024 .bf16) (x2 : Vec F S1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (projOut1 x0 x1 x2)) -∗ K ⟨⟩))
      ⊢ wp frame (wpE (defs₀ (F := F)) Variants.none c none) E (cc1__matmul_bias_kernel i arg2 harg2 arg3 harg3 arg4 harg4 arg5 harg5) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover1 _)

theorem projBefore1_0 (c : Dev nD) (t : Fin cfg1.N) (d) : (projDat1 V c).before 0 t d = winBlock1 V c 0 t :=
  projBefore1_0_of V (projDat1 V c) (projDat1_A V c 0) (projDat1_after0 V c) t d
theorem projBefore1_1 (c : Dev nD) (t : Fin cfg1.N) (d) : (projDat1 V c).before 1 t d = winBlock1 V c 1 t :=
  projBefore1_1_of V (projDat1 V c) (projDat1_A V c 1) (projDat1_after1 V c) t d
theorem projBefore1_2 (c : Dev nD) (t : Fin cfg1.N) (d) : (projDat1 V c).before 2 t d = winBlock1 V c 2 t :=
  projBefore1_2_of V (projDat1 V c) (projDat1_A V c 2) (projDat1_after2 V c) t d

/-- What the body is called with at point t, the windows one by one, -/
def projPre1 (c : Dev nD) (t : Fin cfg1.N) : sProp 𝕄 :=
  iprop((projDat1 V c).Φ t.castSucc ∗ (projDat1 V c).owesAt () t.castSucc
    ∗ (∃ d, owns (c : Thread nD τ) (st1_0 t) fullShare ((projDat1 V c).before 0 t d))
    ∗ (∃ d, owns (c : Thread nD τ) (st1_1 t) fullShare ((projDat1 V c).before 1 t d))
    ∗ (∃ d, owns (c : Thread nD τ) (st1_2 t) fullShare ((projDat1 V c).before 2 t d))
    ∗ (∃ d, owns (c : Thread nD τ) (st1_3 t) fullShare ((projDat1 V c).before 3 t d)))

/-- and what it returns. -/
def projPost1 (c : Dev nD) (t : Fin cfg1.N) : sProp 𝕄 :=
  iprop((projDat1 V c).Φ t.succ ∗ (projDat1 V c).owesAt () t.succ
    ∗ owns (c : Thread nD τ) (st1_0 t) fullShare ((projDat1 V c).after 0 t)
    ∗ owns (c : Thread nD τ) (st1_1 t) fullShare ((projDat1 V c).after 1 t)
    ∗ owns (c : Thread nD τ) (st1_2 t) fullShare ((projDat1 V c).after 2 t)
    ∗ owns (c : Thread nD τ) (st1_3 t) fullShare ((projDat1 V c).after 3 t))

/-- The body at any point: the inputs' memrefs hold their blocks, so the triple applies; the invariant and the core's
    dues pass through unread. -/
theorem projBody1 (c : Dev nD) (t : Fin cfg1.N) :
    projPre1 V c t ⊢ wp frame (wpE (defs₀ (F := F)) Variants.none c none) Set.univ (bodyAt1 t) (fun _ => projPost1 V c t) := by
  unfold projPre1 projPost1 bodyAt1
  simp only [projBefore1_0, projBefore1_1, projBefore1_2]
  rw [show (projDat1 V c).Φ t.succ = (projDat1 V c).Φ t.castSucc from rfl,
    show (projDat1 V c).owesAt () t.succ = (projDat1 V c).owesAt () t.castSucc from rfl,
    projDat1_after0, projDat1_after1, projDat1_after2, projDat1_after3]
  iintro ⟨HΦ, Ho, ⟨%d0, H0⟩, ⟨%d1, H1⟩, ⟨%d2, H2⟩, ⟨%d3, H3⟩⟩
  iapply (projKernel1 c Set.univ _ _ _ _ _ _ _ _ _ (winBlock1 V c 0 t) (winBlock1 V c 1 t) (winBlock1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem projObligation1 (c : Dev nD) : BodyObligation (projDat1 (F := F) V c) (defs₀ (F := F)) Variants.none () Set.univ := fun t => by
  rw [bigSep_W1, bigSep_W1]
  exact projBody1 V c t

end Cert.KernelIdeal.Gru

end
-- ==== Proof.KI.CellData.lean ====
/- The gating pallas_call (the third): the data of its pipeline.
   Grid 32. At point t the body reads rows 256·t … of both tables of gate pre-activations (all 6144 columns each) and of the
   old hidden state (2048 columns), takes the three 2048-column gate slices of each table, and stores the 256 × 2048 block of
   the new hidden state whole.  Stated at a parameter V, the buffer contents when the region is entered. -/
import proofs.«152705_j64793876628224_1_alg».proof.Proof.Gen.KernelIdeal.Launch
import proofs.«152705_j64793876628224_1_alg».proof.Proof.Gen.KernelIdeal.Skeleton
import proofs.«152705_j64793876628224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- Window w's block at grid point t, read off its array as the region finds it. -/
def winBlock2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's accesses: the reset, update and candidate column slices of a table's block, and a whole 256 × 2048 block. -/
abbrev resetRect : Rect S256x6144 := Rect.unit (s := S256x6144) ![0, 0] S256x2048.size inb_S256x6144_S256x2048_0_0
abbrev updateRect : Rect S256x6144 := Rect.unit (s := S256x6144) ![0, 2048] S256x2048.size inb_S256x6144_S256x2048_0_2048
abbrev candRect : Rect S256x6144 := Rect.unit (s := S256x6144) ![0, 4096] S256x2048.size inb_S256x6144_S256x2048_0_4096
abbrev stateRect : Rect S256x2048 := Rect.unit (s := S256x2048) ![0, 0] S256x2048.size inb_S256x2048_S256x2048_0_0

/-- What the body leaves in the new state's staging buffer, from the three input blocks: its one store, of the gating
    payload over the six gate slices and the old state, as a single piece. -/
def cellOut2 (x0 x1 : Vec F S256x6144 .f32) (x2 : Vec F S256x2048 .f32) : Vec F S256x2048 .f32 :=
  View.canon [⟨stateRect, k2_pay1 (View.ld x0 resetRect) (View.ld x0 updateRect) (View.ld x0 candRect)
    (View.ld x1 resetRect) (View.ld x1 updateRect) (View.ld x1 candRect) (View.ld x2 stateRect)⟩]

/-- The pipeline's proof data on core c: the arrays as the region finds them; after the body at point t each input's
    buffer still at its block and the new state's at cellOut2 of the three input blocks; the invariant is the scoped rest and
    the generator register, untouched; nothing owed; full shares. -/
def cellDat2 (c : Dev nD) : Dat τ (Elt F) Unit ℕ (UR sig nD τ) ℕ cfg2 c where
  A w := V c (Pipeline.arrRef spec2 w)
  after w t := match w with
    | ⟨0, _⟩ => winBlock2 V c 0 t
    | ⟨1, _⟩ => winBlock2 V c 1 t
    | ⟨2, _⟩ => winBlock2 V c 2 t
    | ⟨3, _⟩ => cellOut2 (winBlock2 V c 0 t) (winBlock2 V c 1 t) (winBlock2 V c 2 t)
  Φ _ := Pipeline.ΦA spec2 c
  q _ := fullShare
  owed _ := 0

theorem cellDat2_A (c : Dev nD) (w : Fin cfg2.W) : (cellDat2 V c).A w = V c (Pipeline.arrRef spec2 w) := by
  dsimp only [cellDat2]

theorem cellDat2_after0 (c : Dev nD) (t : Fin cfg2.N) : (cellDat2 V c).after 0 t = winBlock2 V c 0 t := by dsimp only [cellDat2]
theorem cellDat2_after1 (c : Dev nD) (t : Fin cfg2.N) : (cellDat2 V c).after 1 t = winBlock2 V c 1 t := by dsimp only [cellDat2]
theorem cellDat2_after2 (c : Dev nD) (t : Fin cfg2.N) : (cellDat2 V c).after 2 t = winBlock2 V c 2 t := by dsimp only [cellDat2]
theorem cellDat2_after3 (c : Dev nD) (t : Fin cfg2.N) :
    (cellDat2 V c).after 3 t = cellOut2 (winBlock2 V c 0 t) (winBlock2 V c 1 t) (winBlock2 V c 2 t) := by dsimp only [cellDat2]

end Cert.KernelIdeal.Gru

end
-- ==== Proof.KI.CellBody.lean ====
/- The gating pallas_call: its body's triple and the pipeline's body obligation.
   On whole staging buffers holding the two tables' blocks and the old state's block, the body runs to the end, leaves the
   inputs as they were and the new state's buffer at cellOut2 of them: six slice loads, one whole load, the pointwise
   gating, one whole store (and a load of the output's old contents, never used). At every grid point the pipeline hands the
   body exactly those blocks. -/
import proofs.«152705_j64793876628224_1_alg».proof.Proof.KI.CellData

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, fixed by the run
variable (V : (c : Dev nD) → (b : Ref sig .tc) → Buf (Elt F) ((c : Thread nD τ).loc b))

/-- An input window's current staging buffer holds its block at every point, for any proof data whose array is V's and
    whose body leaves the block in place. -/
theorem cellBefore_0_of {c : Dev nD} (dat : Dat τ (Elt F) Unit ℕ (UR sig nD τ) ℕ cfg2 c) (hA : dat.A 0 = V c (Pipeline.arrRef spec2 0))
    (hafter : ∀ t, dat.after 0 t = winBlock2 V c 0 t) (t : Fin cfg2.N) (d) : dat.before 0 t d = winBlock2 V c 0 t :=
  (dat.before_in_eq_fetched 0 rfl (fun _ => rfl) (fun _ _ _ => rfl) (fun t => by rw [hafter]; unfold Dat.blockOf winBlock2; rw [hA]; try rfl) t d).trans
    (by unfold Dat.fetched Dat.blockOf winBlock2; rw [hA]; try rfl)
theorem cellBefore_1_of {c : Dev nD} (dat : Dat τ (Elt F) Unit ℕ (UR sig nD τ) ℕ cfg2 c) (hA : dat.A 1 = V c (Pipeline.arrRef spec2 1))
    (hafter : ∀ t, dat.after 1 t = winBlock2 V c 1 t) (t : Fin cfg2.N) (d) : dat.before 1 t d = winBlock2 V c 1 t :=
  (dat.before_in_eq_fetched 1 rfl (fun _ => rfl) (fun _ _ _ => rfl) (fun t => by rw [hafter]; unfold Dat.blockOf winBlock2; rw [hA]; try rfl) t d).trans
    (by unfold Dat.fetched Dat.blockOf winBlock2; rw [hA]; try rfl)
theorem cellBefore_2_of {c : Dev nD} (dat : Dat τ (Elt F) Unit ℕ (UR sig nD τ) ℕ cfg2 c) (hA : dat.A 2 = V c (Pipeline.arrRef spec2 2))
    (hafter : ∀ t, dat.after 2 t = winBlock2 V c 2 t) (t : Fin cfg2.N) (d) : dat.before 2 t d = winBlock2 V c 2 t :=
  (dat.before_in_eq_fetched 2 rfl (fun _ => rfl) (fun _ _ _ => rfl) (fun t => by rw [hafter]; unfold Dat.blockOf winBlock2; rw [hA]; try rfl) t d).trans
    (by unfold Dat.fetched Dat.blockOf winBlock2; rw [hA]; try rfl)

/-- The one store covers the new state's buffer. -/
theorem cellCover (p0 : Vec F S256x2048 .f32) (y : S256x2048.Idx) :
    ∃ pc ∈ ([⟨stateRect, p0⟩] : List (View.Piece (Elt F) S256x2048 .f32)), y ∈ pc.1.set :=
  View.cover_of_tiled [⟨stateRect, p0⟩] S256x2048.size (by rfl) y

set_option maxHeartbeats 1000000 in
/-- The body's triple on whole staging memrefs. -/
theorem cellKernel (c : Dev nD) (E : Set ℕ) (i : grid2.Coords)
    (arg1 : Memref sig .tc .vmem S256x6144 .f32) (harg1 : arg1.IsWhole) (arg2 : Memref sig .tc .vmem S256x6144 .f32) (harg2 : arg2.IsWhole)
    (arg3 : Memref sig .tc .vmem S256x2048 .f32) (harg3 : arg3.IsWhole) (arg4 : Memref sig .tc .vmem S256x2048 .f32) (harg4 : arg4.IsWhole)
    (x0 x1 : Vec F S256x6144 .f32) (x2 : Vec F S256x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (cellOut2 x0 x1 x2)) -∗ K ⟨⟩))
      ⊢ wp frame (wpE (defs₀ (F := F)) Variants.none c none) E (cc2__gating_kernel i arg1 harg1 arg2 harg2 arg3 harg3 arg4 harg4) K := by
  simp only [cc2__gating_kernel_eq_skeleton]; unfold cc2__gating_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cellCover _)

theorem cellBefore_0 (c : Dev nD) (t : Fin cfg2.N) (d) : (cellDat2 V c).before 0 t d = winBlock2 V c 0 t :=
  cellBefore_0_of V (cellDat2 V c) (cellDat2_A V c 0) (cellDat2_after0 V c) t d
theorem cellBefore_1 (c : Dev nD) (t : Fin cfg2.N) (d) : (cellDat2 V c).before 1 t d = winBlock2 V c 1 t :=
  cellBefore_1_of V (cellDat2 V c) (cellDat2_A V c 1) (cellDat2_after1 V c) t d
theorem cellBefore_2 (c : Dev nD) (t : Fin cfg2.N) (d) : (cellDat2 V c).before 2 t d = winBlock2 V c 2 t :=
  cellBefore_2_of V (cellDat2 V c) (cellDat2_A V c 2) (cellDat2_after2 V c) t d

/-- What the body is called with at point t, the windows one by one, -/
def cellPre (c : Dev nD) (t : Fin cfg2.N) : sProp 𝕄 :=
  iprop((cellDat2 V c).Φ t.castSucc ∗ (cellDat2 V c).owesAt () t.castSucc
    ∗ (∃ d, owns (c : Thread nD τ) (st2_0 t) fullShare ((cellDat2 V c).before 0 t d))
    ∗ (∃ d, owns (c : Thread nD τ) (st2_1 t) fullShare ((cellDat2 V c).before 1 t d))
    ∗ (∃ d, owns (c : Thread nD τ) (st2_2 t) fullShare ((cellDat2 V c).before 2 t d))
    ∗ (∃ d, owns (c : Thread nD τ) (st2_3 t) fullShare ((cellDat2 V c).before 3 t d)))

/-- and what it returns. -/
def cellPost (c : Dev nD) (t : Fin cfg2.N) : sProp 𝕄 :=
  iprop((cellDat2 V c).Φ t.succ ∗ (cellDat2 V c).owesAt () t.succ
    ∗ owns (c : Thread nD τ) (st2_0 t) fullShare ((cellDat2 V c).after 0 t)
    ∗ owns (c : Thread nD τ) (st2_1 t) fullShare ((cellDat2 V c).after 1 t)
    ∗ owns (c : Thread nD τ) (st2_2 t) fullShare ((cellDat2 V c).after 2 t)
    ∗ owns (c : Thread nD τ) (st2_3 t) fullShare ((cellDat2 V c).after 3 t))

/-- The body at any point: the inputs' memrefs hold their blocks, so the triple applies; the invariant and the core's
    dues pass through unread. -/
theorem cellBody (c : Dev nD) (t : Fin cfg2.N) :
    cellPre V c t ⊢ wp frame (wpE (defs₀ (F := F)) Variants.none c none) Set.univ (bodyAt2 t) (fun _ => cellPost V c t) := by
  unfold cellPre cellPost bodyAt2
  simp only [cellBefore_0, cellBefore_1, cellBefore_2]
  rw [show (cellDat2 V c).Φ t.succ = (cellDat2 V c).Φ t.castSucc from rfl,
    show (cellDat2 V c).owesAt () t.succ = (cellDat2 V c).owesAt () t.castSucc from rfl,
    cellDat2_after0, cellDat2_after1, cellDat2_after2, cellDat2_after3]
  iintro ⟨HΦ, Ho, ⟨%d0, H0⟩, ⟨%d1, H1⟩, ⟨%d2, H2⟩, ⟨%d3, H3⟩⟩
  iapply (cellKernel c Set.univ _ _ _ _ _ _ _ _ _ (winBlock2 V c 0 t) (winBlock2 V c 1 t) (winBlock2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem cellObligation (c : Dev nD) : BodyObligation (cellDat2 (F := F) V c) (defs₀ (F := F)) Variants.none () Set.univ := fun t => by
  rw [bigSep_W2, bigSep_W2]
  exact cellBody V c t

end Cert.KernelIdeal.Gru

end
-- ==== Proof.KI.Run.lean ====
/- The run of @main: eight host operations (four joins of three tables, two transpositions, two changes of format), then
   the input projection, the hidden projection and the gating, each a pipelined kernel region.
   The buffers' contents are followed from boundary to boundary: at launch; after the host operations; after each region
   (that region's output array at what its write-backs leave, every other buffer untouched). Each region enters from the
   previous boundary's contents and its proof data are stated at them. The launch then gives: every weakly fair execution
   terminates, and at the end every unscoped buffer holds the last boundary's contents; in particular the new hidden state's
   buffer holds the gating region's output array and each argument holds what it was launched with. -/
import proofs.«152705_j64793876628224_1_alg».proof.Proof.KI.Proj0Body
import proofs.«152705_j64793876628224_1_alg».proof.Proof.KI.Proj1Body
import proofs.«152705_j64793876628224_1_alg».proof.Proof.KI.CellBody

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m (c, b)
/-- After the host operations (the input projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After pallas_call 0: its arrays at what the pipeline leaves (an input as entered, the output's write-backs folded),
    every other buffer as entered. -/
def W2 (c : Dev nD) : Valuation τ sig (Elt F) :=
  Pipeline.withArrays spec0 c (W1 m c) fun w => (projDat0 (V1 m) c).arrAt w cfg0.N
theorem W2_arr (c : Dev nD) (w : Fin cfg0.W) :
    W2 m c (Proc.devRef .tc (Pipeline.arrRef spec0 w)) = (projDat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem exitArr0 (c : Dev nD) (w : Fin cfg0.W) : (projDat0 (V1 m) c).arrAt w cfg0.N = V2 m c (Pipeline.arrRef spec0 w) :=
  (W2_arr m c w).symm
theorem exitRest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After pallas_call 1: its arrays at what the pipeline leaves (an input as entered, the output's write-backs folded),
    every other buffer as entered. -/
def W3 (c : Dev nD) : Valuation τ sig (Elt F) :=
  Pipeline.withArrays spec1 c (W2 m c) fun w => (projDat1 (V2 m) c).arrAt w cfg1.N
theorem W3_arr (c : Dev nD) (w : Fin cfg1.W) :
    W3 m c (Proc.devRef .tc (Pipeline.arrRef spec1 w)) = (projDat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem exitArr1 (c : Dev nD) (w : Fin cfg1.W) : (projDat1 (V2 m) c).arrAt w cfg1.N = V3 m c (Pipeline.arrRef spec1 w) :=
  (W3_arr m c w).symm
theorem exitRest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After pallas_call 2: its arrays at what the pipeline leaves (an input as entered, the output's write-backs folded),
    every other buffer as entered. -/
def W4 (c : Dev nD) : Valuation τ sig (Elt F) :=
  Pipeline.withArrays spec2 c (W3 m c) fun w => (cellDat2 (V3 m) c).arrAt w cfg2.N
theorem W4_arr (c : Dev nD) (w : Fin cfg2.W) :
    W4 m c (Proc.devRef .tc (Pipeline.arrRef spec2 w)) = (cellDat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem exitArr2 (c : Dev nD) (w : Fin cfg2.W) : (cellDat2 (V3 m) c).arrAt w cfg2.N = V4 m c (Pipeline.arrRef spec2 w) :=
  (W4_arr m c w).symm
theorem exitRest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## No item writes an argument -/

/-- The references the host operations write. -/
abbrev hostWritten : List (Ref sig .tc) := [main_v0, main_v1, main_v2, main_v3, main_v4, main_v5, main_v6, main_v7]
theorem hostOps0_writes : (hostOps0 : List (HloOp τ sig (Elt F))).Forall fun op => op.writes ⊆ (hostWritten.map (Proc.devRef (τ := τ) .tc)).toFinset := by
  simp only [List.Forall, StableHlo.unary_writes, StableHlo.nary_writes, Finset.singleton_subset_iff, List.mem_toFinset]
  refine ⟨?_, ?_, ?_, ?_, ?_, ?_, ?_, ?_⟩ <;> exact List.mem_map_of_mem (by decide)
theorem W1_of_not_written (c : Dev nD) (r : Ref sig .tc) (h : r ∉ hostWritten) : W1 m c (Proc.devRef .tc r) = W0 m c (Proc.devRef .tc r) :=
  StableHlo.after_of_writes_sub hostOps0 _ hostOps0_writes h

theorem atEnd_main_arg0 (c : Dev nD) : W4 m c (Proc.devRef .tc main_arg0) = m ((c : Thread nD τ).loc main_arg0) :=
  (W4_of_ne m c main_arg0 (by decide)).trans <| (W3_of_ne m c main_arg0 (by decide)).trans <|
    ((W2_arr m c 0).trans (((projDat0 (V1 m) c).arrAt_in 0 rfl _).trans (projDat0_A (V1 m) c 0))).trans <| (W1_of_not_written m c main_arg0 (by decide)).trans rfl
theorem atEnd_main_arg1 (c : Dev nD) : W4 m c (Proc.devRef .tc main_arg1) = m ((c : Thread nD τ).loc main_arg1) :=
  ((W4_arr m c 2).trans (((cellDat2 (V3 m) c).arrAt_in 2 rfl _).trans (cellDat2_A (V3 m) c 2))).trans <| ((W3_arr m c 0).trans (((projDat1 (V2 m) c).arrAt_in 0 rfl _).trans (projDat1_A (V2 m) c 0))).trans <|
    (W2_of_ne m c main_arg1 (by decide)).trans <| (W1_of_not_written m c main_arg1 (by decide)).trans rfl
theorem atEnd_main_arg2 (c : Dev nD) : W4 m c (Proc.devRef .tc main_arg2) = m ((c : Thread nD τ).loc main_arg2) :=
  (W4_of_ne m c main_arg2 (by decide)).trans <| (W3_of_ne m c main_arg2 (by decide)).trans <|
    (W2_of_ne m c main_arg2 (by decide)).trans <| (W1_of_not_written m c main_arg2 (by decide)).trans rfl
theorem atEnd_main_arg3 (c : Dev nD) : W4 m c (Proc.devRef .tc main_arg3) = m ((c : Thread nD τ).loc main_arg3) :=
  (W4_of_ne m c main_arg3 (by decide)).trans <| (W3_of_ne m c main_arg3 (by decide)).trans <|
    (W2_of_ne m c main_arg3 (by decide)).trans <| (W1_of_not_written m c main_arg3 (by decide)).trans rfl
theorem atEnd_main_arg4 (c : Dev nD) : W4 m c (Proc.devRef .tc main_arg4) = m ((c : Thread nD τ).loc main_arg4) :=
  (W4_of_ne m c main_arg4 (by decide)).trans <| (W3_of_ne m c main_arg4 (by decide)).trans <|
    (W2_of_ne m c main_arg4 (by decide)).trans <| (W1_of_not_written m c main_arg4 (by decide)).trans rfl
theorem atEnd_main_arg5 (c : Dev nD) : W4 m c (Proc.devRef .tc main_arg5) = m ((c : Thread nD τ).loc main_arg5) :=
  (W4_of_ne m c main_arg5 (by decide)).trans <| (W3_of_ne m c main_arg5 (by decide)).trans <|
    (W2_of_ne m c main_arg5 (by decide)).trans <| (W1_of_not_written m c main_arg5 (by decide)).trans rfl
theorem atEnd_main_arg6 (c : Dev nD) : W4 m c (Proc.devRef .tc main_arg6) = m ((c : Thread nD τ).loc main_arg6) :=
  (W4_of_ne m c main_arg6 (by decide)).trans <| (W3_of_ne m c main_arg6 (by decide)).trans <|
    (W2_of_ne m c main_arg6 (by decide)).trans <| (W1_of_not_written m c main_arg6 (by decide)).trans rfl
theorem atEnd_main_arg7 (c : Dev nD) : W4 m c (Proc.devRef .tc main_arg7) = m ((c : Thread nD τ).loc main_arg7) :=
  (W4_of_ne m c main_arg7 (by decide)).trans <| (W3_of_ne m c main_arg7 (by decide)).trans <|
    (W2_of_ne m c main_arg7 (by decide)).trans <| (W1_of_not_written m c main_arg7 (by decide)).trans rfl
theorem atEnd_main_arg8 (c : Dev nD) : W4 m c (Proc.devRef .tc main_arg8) = m ((c : Thread nD τ).loc main_arg8) :=
  (W4_of_ne m c main_arg8 (by decide)).trans <| (W3_of_ne m c main_arg8 (by decide)).trans <|
    (W2_of_ne m c main_arg8 (by decide)).trans <| (W1_of_not_written m c main_arg8 (by decide)).trans rfl
theorem atEnd_main_arg9 (c : Dev nD) : W4 m c (Proc.devRef .tc main_arg9) = m ((c : Thread nD τ).loc main_arg9) :=
  (W4_of_ne m c main_arg9 (by decide)).trans <| (W3_of_ne m c main_arg9 (by decide)).trans <|
    (W2_of_ne m c main_arg9 (by decide)).trans <| (W1_of_not_written m c main_arg9 (by decide)).trans rfl
theorem atEnd_main_arg10 (c : Dev nD) : W4 m c (Proc.devRef .tc main_arg10) = m ((c : Thread nD τ).loc main_arg10) :=
  (W4_of_ne m c main_arg10 (by decide)).trans <| (W3_of_ne m c main_arg10 (by decide)).trans <|
    (W2_of_ne m c main_arg10 (by decide)).trans <| (W1_of_not_written m c main_arg10 (by decide)).trans rfl
theorem atEnd_main_arg11 (c : Dev nD) : W4 m c (Proc.devRef .tc main_arg11) = m ((c : Thread nD τ).loc main_arg11) :=
  (W4_of_ne m c main_arg11 (by decide)).trans <| (W3_of_ne m c main_arg11 (by decide)).trans <|
    (W2_of_ne m c main_arg11 (by decide)).trans <| (W1_of_not_written m c main_arg11 (by decide)).trans rfl
theorem atEnd_main_arg12 (c : Dev nD) : W4 m c (Proc.devRef .tc main_arg12) = m ((c : Thread nD τ).loc main_arg12) :=
  (W4_of_ne m c main_arg12 (by decide)).trans <| (W3_of_ne m c main_arg12 (by decide)).trans <|
    (W2_of_ne m c main_arg12 (by decide)).trans <| (W1_of_not_written m c main_arg12 (by decide)).trans rfl
theorem atEnd_main_arg13 (c : Dev nD) : W4 m c (Proc.devRef .tc main_arg13) = m ((c : Thread nD τ).loc main_arg13) :=
  (W4_of_ne m c main_arg13 (by decide)).trans <| (W3_of_ne m c main_arg13 (by decide)).trans <|
    (W2_of_ne m c main_arg13 (by decide)).trans <| (W1_of_not_written m c main_arg13 (by decide)).trans rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => projDat0 (V1 m) c
  | ⟨1, _⟩ => fun c => projDat1 (V2 m) c
  | ⟨2, _⟩ => fun c => cellDat2 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
/-- The host operations as a segment from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Pallas call 0 over the thread state: entered from every unscoped buffer at W1, left at W2. Its arrays are split
    out of the unscoped buffers and put back at the exit contents; the generator register goes into the invariant and comes
    out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (projObligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at W2, left at W3. Its arrays are split
    out of the unscoped buffers and put back at the exit contents; the generator register goes into the invariant and comes
    out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (projObligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at W3, left at W4. Its arrays are split
    out of the unscoped buffers and put back at the exit contents; the generator register goes into the invariant and comes
    out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (cellObligation (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (exitArr2 m c) (exitRest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hostSeg m), .region (reg0 m), .region (reg1 m), .region (reg2 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and at
    the end the new hidden state's buffer holds the last boundary's contents and every argument what it was launched with. -/
theorem run_main (ρ : Dev nD → PrngReg) : θ_run defs (onTc (τ := τ) (main (F := F))) ⟨m, fun _ => 0, ρ⟩ (fun r => ∀ c : Dev nD,
      r.2.mem ((c.tc : Thread nD τ).loc main_v10) = W4 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v10 (by decide)),
       (h c _ (mem_uc main_arg0 (by decide))).trans (atEnd_main_arg0 m c),
       (h c _ (mem_uc main_arg1 (by decide))).trans (atEnd_main_arg1 m c),
       (h c _ (mem_uc main_arg2 (by decide))).trans (atEnd_main_arg2 m c),
       (h c _ (mem_uc main_arg3 (by decide))).trans (atEnd_main_arg3 m c),
       (h c _ (mem_uc main_arg4 (by decide))).trans (atEnd_main_arg4 m c),
       (h c _ (mem_uc main_arg5 (by decide))).trans (atEnd_main_arg5 m c),
       (h c _ (mem_uc main_arg6 (by decide))).trans (atEnd_main_arg6 m c),
       (h c _ (mem_uc main_arg7 (by decide))).trans (atEnd_main_arg7 m c),
       (h c _ (mem_uc main_arg8 (by decide))).trans (atEnd_main_arg8 m c),
       (h c _ (mem_uc main_arg9 (by decide))).trans (atEnd_main_arg9 m c),
       (h c _ (mem_uc main_arg10 (by decide))).trans (atEnd_main_arg10 m c),
       (h c _ (mem_uc main_arg11 (by decide))).trans (atEnd_main_arg11 m c),
       (h c _ (mem_uc main_arg12 (by decide))).trans (atEnd_main_arg12 m c),
       (h c _ (mem_uc main_arg13 (by decide))).trans (atEnd_main_arg13 m c)⟩)

end Cert.KernelIdeal.Gru

end
-- ==== Proof.KI.Reads.lean ====
/- Reading the run's boundaries back.
   What each kernel region finds in the arrays it reads, in terms of the launch memory: the host operations' results (the
   joined, transposed and re-formatted weight tables; the joined biases), the two projections' output arrays when the gating
   region starts, and the arguments, which no item writes. -/
import proofs.«152705_j64793876628224_1_alg».proof.Proof.KI.Run
import Idealize.ShloMosaic.Lib.StableHlo.Run

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

/-! ## The host operations' results -/

/-- Three square tables joined along the rows, transposed, and re-formatted: what the host operations leave as a
    projection's weight operand. -/
def wgtOperand (a b d : (⟨S2048x2048, .f32⟩ : BufTy).Contents (Elt F)) : (⟨S2048x6144, .bf16⟩ : BufTy).Contents (Elt F) :=
  truncf .bf16 (transpose S2048x6144 [1, 0] (concatenate S6144x2048 0 [⟨S2048x2048, a⟩, ⟨S2048x2048, b⟩, ⟨S2048x2048, d⟩]
    concatenates_S2048x2048_S2048x2048_S2048x2048_S6144x2048_d0) transposes_S6144x2048_S2048x6144_1_0) bitsLt_bf16_f32
/-- Three bias rows joined: a projection's bias operand. -/
def biasOperand (a b d : (⟨S2048, .f32⟩ : BufTy).Contents (Elt F)) : (⟨S6144, .f32⟩ : BufTy).Contents (Elt F) :=
  concatenate S6144 0 [⟨S2048, a⟩, ⟨S2048, b⟩, ⟨S2048, d⟩] concatenates_S2048_S2048_S2048_S6144_d0

theorem V1_main_v5 (c : Dev nD) : V1 m c main_v5
    = wgtOperand (m ((c.tc : Thread nD τ).loc main_arg2)) (m ((c.tc : Thread nD τ).loc main_arg6)) (m ((c.tc : Thread nD τ).loc main_arg10)) := by
  show StableHlo.after hostOps0 (W0 m c) (Proc.devRef .tc main_v5) = _
  after_results; rfl
theorem V1_main_v7 (c : Dev nD) : V1 m c main_v7
    = wgtOperand (m ((c.tc : Thread nD τ).loc main_arg4)) (m ((c.tc : Thread nD τ).loc main_arg8)) (m ((c.tc : Thread nD τ).loc main_arg12)) := by
  show StableHlo.after hostOps0 (W0 m c) (Proc.devRef .tc main_v7) = _
  after_results; rfl
theorem V1_main_v1 (c : Dev nD) : V1 m c main_v1
    = biasOperand (m ((c.tc : Thread nD τ).loc main_arg3)) (m ((c.tc : Thread nD τ).loc main_arg7)) (m ((c.tc : Thread nD τ).loc main_arg11)) := by
  show StableHlo.after hostOps0 (W0 m c) (Proc.devRef .tc main_v1) = _
  after_results; rfl
theorem V1_main_v3 (c : Dev nD) : V1 m c main_v3
    = biasOperand (m ((c.tc : Thread nD τ).loc main_arg5)) (m ((c.tc : Thread nD τ).loc main_arg9)) (m ((c.tc : Thread nD τ).loc main_arg13)) := by
  show StableHlo.after hostOps0 (W0 m c) (Proc.devRef .tc main_v3) = _
  after_results; rfl
theorem V1_main_arg0 (c : Dev nD) : V1 m c main_arg0 = m ((c.tc : Thread nD τ).loc main_arg0) :=
  (W1_of_not_written m c main_arg0 (by decide)).trans rfl
theorem V1_main_arg1 (c : Dev nD) : V1 m c main_arg1 = m ((c.tc : Thread nD τ).loc main_arg1) :=
  (W1_of_not_written m c main_arg1 (by decide)).trans rfl

/-! ## What the hidden projection finds (the input projection wrote only its own output array) -/

theorem V2_main_arg1 (c : Dev nD) : V2 m c main_arg1 = m ((c.tc : Thread nD τ).loc main_arg1) :=
  (W2_of_ne m c main_arg1 (by decide)).trans (V1_main_arg1 m c)
theorem V2_main_v7 (c : Dev nD) : V2 m c main_v7 = V1 m c main_v7 := W2_of_ne m c main_v7 (by decide)
theorem V2_main_v3 (c : Dev nD) : V2 m c main_v3 = V1 m c main_v3 := W2_of_ne m c main_v3 (by decide)

/-! ## What the gating finds -/

theorem V3_main_v8 (c : Dev nD) : V3 m c main_v8 = (projDat0 (V1 m) c).arrAt 3 cfg0.N :=
  (W3_of_ne m c main_v8 (by decide)).trans (W2_arr m c 3)
theorem V3_main_v9 (c : Dev nD) : V3 m c main_v9 = (projDat1 (V2 m) c).arrAt 3 cfg1.N := W3_arr m c 3
theorem V3_main_arg1 (c : Dev nD) : V3 m c main_arg1 = m ((c.tc : Thread nD τ).loc main_arg1) :=
  ((W3_arr m c 0).trans (((projDat1 (V2 m) c).arrAt_in 0 rfl _).trans (projDat1_A (V2 m) c 0))).trans (V2_main_arg1 m c)

/-- The new hidden state's buffer at the end is the gating region's output array. -/
theorem atEnd_main_v10 (c : Dev nD) : W4 m c (Proc.devRef .tc main_v10) = (cellDat2 (V3 m) c).arrAt 3 cfg2.N := W4_arr m c 3

end Cert.KernelIdeal.Gru

end
-- ==== Proof.GruSpec.lean ====
/- What a GRU cell computes, entry by entry, on the extended reals.

   The three input-side gates are one product of the activations x [8192, 2048] with a transposed weight table
   wT [2048, 6144] plus a bias row [6144]:  proj x wT b (r, c) = (∑ k, x (r, k) · wT (k, c)) + b c;
   the three hidden-side gates are the same with the hidden state h in place of x.  Column c of the 6144 holds gate
   c / 2048 (reset, update, candidate) of hidden unit c mod 2048.  With
       r = logistic (gi_r + gh_r),  z = logistic (gi_z + gh_z),  n = tanh (gi_n + r · gh_n)
   the new hidden state is  (1 − z) · n + z · h. -/
import Idealize.ShloMosaic.PureOps.Ideal
import Idealize.ShloMosaic.Lib.ValueIdx

noncomputable section

namespace Cert.GruSpec

open Idealize.ShloMosaic Idealize.ShloMosaic.ValueIdx

abbrev SAct : Shape := ⟨2, ![8192, 2048]⟩
abbrev SWgtT : Shape := ⟨2, ![2048, 6144]⟩
abbrev SBias : Shape := ⟨1, ![6144]⟩
abbrev SGates : Shape := ⟨2, ![8192, 6144]⟩

/-- Row r of the activations at column k. -/
abbrev actAt (i : SGates.Idx) (k : Fin 2048) : SAct.Idx := ix2 (⟨(i 0).val, (i 0).isLt⟩ : Fin 8192) k
/-- Row k of the transposed weight at gate column c. -/
abbrev wgtAt (i : SGates.Idx) (k : Fin 2048) : SWgtT.Idx := ix2 k (⟨(i 1).val, (i 1).isLt⟩ : Fin 6144)
/-- The bias of gate column c. -/
abbrev biasAt (i : SGates.Idx) : SBias.Idx := ix1 (⟨(i 1).val, (i 1).isLt⟩ : Fin 6144)

/-- The gate pre-activations: x · wT + b, entry (r, c). -/
def proj (x : SAct.Idx → EReal) (wT : SWgtT.Idx → EReal) (b : SBias.Idx → EReal) : SGates.Idx → EReal :=
  fun i => (∑ k : Fin 2048, x (actAt i k) * wT (wgtAt i k)) + b (biasAt i)

/-- Gate g's column of hidden unit (i 1), in row (i 0). -/
abbrev gateCol (g : Fin 3) (i : SAct.Idx) : SGates.Idx :=
  ix2 (⟨(i 0).val, (i 0).isLt⟩ : Fin 8192)
    (⟨(i 1).val + 2048 * g.val, by have h1 : (i 1).val < 2048 := (i 1).isLt; have hg := g.isLt; omega⟩ : Fin 6144)

/-- The cell: the new hidden state at entry i from the two tables of gate pre-activations and the old state. -/
def cell (gi gh : SGates.Idx → EReal) (h : SAct.Idx → EReal) : SAct.Idx → EReal := fun i =>
  (1 - Ideal.logistic (gi (gateCol 1 i) + gh (gateCol 1 i)))
      * Ideal.tanh (gi (gateCol 2 i) + Ideal.logistic (gi (gateCol 0 i) + gh (gateCol 0 i)) * gh (gateCol 2 i))
    + Ideal.logistic (gi (gateCol 1 i) + gh (gateCol 1 i)) * h i

end Cert.GruSpec

end
-- ==== Proof.KI.Proj0Value.lean ====
/- A projection  x · Wᵀ + b  as a pallas_call (number 0 of @main's three kernel regions): the value of its result array.
   The grid is 8 × 6; point t has coordinates (i, j). The body's payload at entry (p, q) of its 1024 × 1024 block is
       ∑ k < 2048, (activations' block)(p, k) · (weight's block)(k, q) + (bias' block)(q):
   a product into a zero accumulator is the plain sum on the extended reals, the change of format is the identity there,
   and the bias block, made a row and repeated down the rows, reads its entry q.
   The activations' block at (i, j) is rows 1024·i … of the array (all columns), the weight's is columns 1024·j … (all
   rows), the bias' is entries 1024·j …, and the result's block sits at rows 1024·i …, columns 1024·j …. So what point t
   writes back is block t of ONE function of the three arrays, the specification
       proj x wT b (r, cc) = ∑ k, x (r, k) · wT (k, cc) + b cc,
   and the 48 blocks tile the 8192 × 6144 result: entry (r, cc) lies in the block of the point with coordinates
   (r / 1024, cc / 1024). Hence after the last point the result array is proj of the three arrays as the region found them. -/
import proofs.«152705_j64793876628224_1_alg».proof.Proof.Gen.KernelIdeal.Launch
import proofs.«152705_j64793876628224_1_alg».proof.Proof.Gen.KernelIdeal.Skeleton
import proofs.«152705_j64793876628224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws
import proofs.«152705_j64793876628224_1_alg».proof.Proof.KI.Proj0Data
import proofs.«152705_j64793876628224_1_alg».proof.Proof.GruSpec

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's payload at an entry

The product's operand indices at output entry (p, q) and contraction position k are (p, k) on the left and (k, q) on the
right; the four coordinate facts, one per operand axis. -/

theorem lhs_proj0_0 (i : S1024x1024.Idx) (k : dot_S1024x2048_S2048x1024_S1024x1024_1_0_0_1_n_n.contr.Idx) :
    (dot_S1024x2048_S2048x1024_S1024x1024_1_0_0_1_n_n.lhsIdx i k 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs_proj0_1 (i : S1024x1024.Idx) (k : dot_S1024x2048_S2048x1024_S1024x1024_1_0_0_1_n_n.contr.Idx) :
    (dot_S1024x2048_S2048x1024_S1024x1024_1_0_0_1_n_n.lhsIdx i k 1).val = (k ⟨0, by decide⟩).val :=
  dot_S1024x2048_S2048x1024_S1024x1024_1_0_0_1_n_n.lhsIdx_val_of_single rfl i k
theorem rhs_proj0_0 (i : S1024x1024.Idx) (k : dot_S1024x2048_S2048x1024_S1024x1024_1_0_0_1_n_n.contr.Idx) :
    (dot_S1024x2048_S2048x1024_S1024x1024_1_0_0_1_n_n.rhsIdx i k 0).val = (k ⟨0, by decide⟩).val :=
  dot_S1024x2048_S2048x1024_S1024x1024_1_0_0_1_n_n.rhsIdx_val_of_single rfl i k
theorem rhs_proj0_1 (i : S1024x1024.Idx) (k : dot_S1024x2048_S2048x1024_S1024x1024_1_0_0_1_n_n.contr.Idx) :
    (dot_S1024x2048_S2048x1024_S1024x1024_1_0_0_1_n_n.rhsIdx i k 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The product into the zero accumulator, at entry (p, q): the sum over k of left (p, k) times right (k, q). -/
theorem proj0_dot_apply (a : FVec Ideal S1024x2048 .bf16) (b : FVec Ideal S2048x1024 .bf16) (p q : Fin 1024) :
    matmul dot_S1024x2048_S2048x1024_S1024x1024_1_0_0_1_n_n none a b (constant (F := Ideal) S1024x1024 .f32 0x00000000#32) (ix2 p q)
      = ∑ k : Fin 2048, a (ix2 p k) * b (ix2 k q) := by
  refine (Ideal.matmul_constant_zero_apply dot_S1024x2048_S2048x1024_S1024x1024_1_0_0_1_n_n none a b (ix2 p q)).trans ?_
  rw [← Equiv.sum_comp (ValueIdx.contrEquiv1 dot_S1024x2048_S2048x1024_S1024x1024_1_0_0_1_n_n 2048 rfl rfl).symm]
  refine Finset.sum_congr rfl fun k _ => ?_
  have hk := ValueIdx.contrEquiv1_symm_val dot_S1024x2048_S2048x1024_S1024x1024_1_0_0_1_n_n 2048 rfl rfl k
  have el : dot_S1024x2048_S2048x1024_S1024x1024_1_0_0_1_n_n.lhsIdx (ix2 p q) ((ValueIdx.contrEquiv1 dot_S1024x2048_S2048x1024_S1024x1024_1_0_0_1_n_n 2048 rfl rfl).symm k) = ix2 p k := funext fun ax => Fin.ext (by
    match ax with
    | ⟨0, _⟩ => exact lhs_proj0_0 _ _
    | ⟨1, _⟩ => exact (lhs_proj0_1 _ _).trans hk)
  have er : dot_S1024x2048_S2048x1024_S1024x1024_1_0_0_1_n_n.rhsIdx (ix2 p q) ((ValueIdx.contrEquiv1 dot_S1024x2048_S2048x1024_S1024x1024_1_0_0_1_n_n 2048 rfl rfl).symm k) = ix2 k q := funext fun ax => Fin.ext (by
    match ax with
    | ⟨0, _⟩ => exact (rhs_proj0_0 _ _).trans hk
    | ⟨1, _⟩ => exact rhs_proj0_1 _ _)
  rw [el, er]

/-- The bias block made a row and repeated down the rows, at entry (p, q): the bias at q. -/
theorem proj0_bias_apply (x2 : Vec Ideal S1024 .f32) (p q : Fin 1024) :
    broadcastTo S1024x1024 (shapeCast S1x1024 (shapeCast S1024 x2 shapeCasts_S1024_S1024) shapeCasts_S1024_S1x1024) broadcasts_S1x1024_S1024x1024 (ix2 p q)
      = x2 (ix1 q) :=
  (broadcastTo_1b_ab_apply _ broadcasts_S1x1024_S1024x1024 p q).trans
    ((shapeCast_a_1a_apply _ shapeCasts_S1024_S1x1024 (0 : Fin 1) q).trans
      (congrFun (shapeCast_self x2 shapeCasts_S1024_S1024) (ix1 q)))

/-- The payload at entry (p, q) of the result block: row p of the activations' block times column q of the weight's
    block, plus the bias block's entry q. The change of format is the identity on the extended reals. -/
theorem proj0_pay_apply (x0 : Vec Ideal S1024x2048 .f32) (x1 : Vec Ideal S2048x1024 .bf16) (x2 : Vec Ideal S1024 .f32) (p q : Fin 1024) :
    k0_pay1 x0 x1 x2 (ix2 p q) = (∑ k : Fin 2048, x0 (ix2 p k) * x1 (ix2 k q)) + x2 (ix1 q) := by
  unfold k0_pay1
  refine (addf_apply _ _ (ix2 p q)).trans ?_
  refine congrArg₂ (fun u v : EReal => u + v) ?_ (proj0_bias_apply x2 p q)
  refine (proj0_dot_apply _ _ p q).trans ?_
  rw [shapeCast_self]
  rfl

/-! ## The index maps over the grid

Point t of the 8 × 6 grid has coordinates (i, j). The activations' block index is (i, 0), the weight's (0, j), the bias'
(j), the result's (i, j): decided over the 48 points. -/

theorem proj0_idx_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 1) = win0_3.index t (1 : Fin 2)
    ∧ win0_3.index t (0 : Fin 2) ≤ 7 ∧ win0_3.index t (1 : Fin 2) ≤ 5 :=
  (by decide +kernel : ∀ t : Fin grid0.N, _)

/-- Every block of the result is some point's. -/
theorem proj0_idx_onto : ∀ (q0 : Fin 8) (q1 : Fin 6), ∃ t : Fin cfg0.N, win0_3.index t = ![q0.val, q1.val] :=
  (by decide +kernel : ∀ (q0 : Fin 8) (q1 : Fin 6), ∃ t : Fin grid0.N, win0_3.index t = ![q0.val, q1.val])

/-! ## What a point writes back

Over variables: if the three blocks are the arrays read at row offset 1024·i₀ and column offset 1024·j₀, the payload at
entry (p, q) is the specification at (1024·i₀ + p, 1024·j₀ + q). -/

theorem proj0_block_eq (A : Cert.GruSpec.SAct.Idx → EReal) (B : Cert.GruSpec.SWgtT.Idx → EReal) (C : Cert.GruSpec.SBias.Idx → EReal)
    (x0 : Vec Ideal S1024x2048 .f32) (x1 : Vec Ideal S2048x1024 .bf16) (x2 : Vec Ideal S1024 .f32)
    (i₀ j₀ : ℕ) (hi : i₀ ≤ 7) (hj : j₀ ≤ 5)
    (h0 : ∀ (p : Fin 1024) (k : Fin 2048), x0 (ix2 p k) = A (ix2 (⟨i₀ * 1024 + p.val, by have := p.isLt; omega⟩ : Fin 8192) k))
    (h1 : ∀ (k : Fin 2048) (q : Fin 1024), x1 (ix2 k q) = B (ix2 k (⟨j₀ * 1024 + q.val, by have := q.isLt; omega⟩ : Fin 6144)))
    (h2 : ∀ q : Fin 1024, x2 (ix1 q) = C (ix1 (⟨j₀ * 1024 + q.val, by have := q.isLt; omega⟩ : Fin 6144)))
    (p q : Fin 1024) :
    k0_pay1 x0 x1 x2 (ix2 p q)
      = Cert.GruSpec.proj A B C (ix2 (⟨i₀ * 1024 + p.val, by have := p.isLt; omega⟩ : Fin 8192) (⟨j₀ * 1024 + q.val, by have := q.isLt; omega⟩ : Fin 6144)) := by
  refine (proj0_pay_apply x0 x1 x2 p q).trans ?_
  rw [h2 q]
  refine congrArg₂ (fun u v : EReal => u + v) (Finset.sum_congr rfl fun k _ => ?_) rfl
  rw [h0 p k, h1 k q]

variable (V : (c : Dev nD) → (b : Ref sig .tc) → Buf (Elt Ideal) ((c : Thread nD τ).loc b))

theorem proj0_hz2 : (![0, 0] : Fin 2 → Nat) = fun _ => 0 := funext fun a => by fin_cases a <;> rfl
theorem proj0_hz1 : (![0] : Fin 1 → Nat) = fun _ => 0 := funext fun a => by fin_cases a <;> rfl

/-- What point t writes back is block t of the specification of the three arrays as the region finds them. -/
theorem proj0_flushed_eq (c : Dev nD) (t : Fin cfg0.N) :
    (projDat0 (F := Ideal) V c).flushed 3 t
      = ((cfg0.win 3).blk t).view.read (Elt Ideal) (Cert.GruSpec.proj (V c main_arg0) (V c main_v5) (V c main_v1)) := by
  show (cfg0.win 3).cut (grid0.coords t) ((projDat0 (F := Ideal) V c).after 3 t) = _
  rw [projDat0_after3]
  unfold projOut0
  rw [View.canon_unit_zero proj0_hz2]
  simp only [View.ld_unit_zero (S := S1024x2048) proj0_hz2, View.ld_unit_zero (S := S2048x1024) proj0_hz2, View.ld_unit_zero (S := S1024) proj0_hz1]
  obtain ⟨e0, e1, e2, e3, e4, e5, e6⟩ := proj0_idx_facts t
  refine funext fun (j : S1024x1024.Idx) => ?_
  obtain ⟨p, q, rfl⟩ : ∃ (p q : Fin 1024), j = ix2 p q := ⟨j 0, j 1, eq_ix2 j⟩
  show k0_pay1 (winBlock0 V c 0 t) (winBlock0 V c 1 t) (winBlock0 V c 2 t) (ix2 p q)
    = Cert.GruSpec.proj (V c main_arg0) (V c main_v5) (V c main_v1) (((cfg0.win 3).blk t).view.emb (ix2 p q))
  refine (proj0_block_eq (V c main_arg0) (V c main_v5) (V c main_v1) (winBlock0 V c 0 t) (winBlock0 V c 1 t) (winBlock0 V c 2 t)
    (win0_3.index t (0 : Fin 2)) (win0_3.index t (1 : Fin 2)) e5 e6 ?_ ?_ ?_ p q).trans ?_
  · intro p k
    show V c main_arg0 (((cfg0.win 0).blk t).view.emb (ix2 p k)) = _
    refine congrArg (V c main_arg0) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 2048 + 1 * k.val = k.val; omega
  · intro k q
    show V c main_v5 (((cfg0.win 1).blk t).view.emb (ix2 k q)) = _
    refine congrArg (V c main_v5) (funext fun a => Fin.ext ?_)
    match a with
    | ⟨0, _⟩ => show win0_1.index t (0 : Fin 2) * 2048 + 1 * k.val = k.val; omega
    | ⟨1, _⟩ => show win0_1.index t (1 : Fin 2) * 1024 + 1 * q.val = win0_3.index t (1 : Fin 2) * 1024 + q.val; omega
  · intro q
    show V c main_v1 (((cfg0.win 2).blk t).view.emb (ix1 q)) = _
    refine congrArg (V c main_v1) (funext fun a => Fin.ext ?_)
    match a with
    | ⟨0, _⟩ => show win0_2.index t (0 : Fin 1) * 1024 + 1 * q.val = win0_3.index t (1 : Fin 2) * 1024 + q.val; omega
  · refine congrArg (Cert.GruSpec.proj (V c main_arg0) (V c main_v5) (V c main_v1)) (funext fun a => Fin.ext ?_)
    match a with
    | ⟨0, _⟩ => show win0_3.index t (0 : Fin 2) * 1024 + p.val = win0_3.index t (0 : Fin 2) * 1024 + 1 * p.val; omega
    | ⟨1, _⟩ => show win0_3.index t (1 : Fin 2) * 1024 + q.val = win0_3.index t (1 : Fin 2) * 1024 + 1 * q.val; omega

/-! ## From the blocks to the array -/

/-- An entry of the result array is in point t's block iff each coordinate is in the block's range on its axis. -/
theorem proj0_mem_blk (t : Fin cfg0.N) (i : S8192x6144.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v8).slice (win0_3.rect t)).set ↔ _
  rw [View.set_slice_whole, Rect.mem_set_unit]
  exact Iff.rfl

/-- The 48 blocks tile the result: entry (r, cc) is in the block of the point whose coordinates are (r / 1024, cc / 1024). -/
theorem proj0_cover (i : S8192x6144.Idx) :
    ∃ t : Fin cfg0.N, (cfg0.win 3).flush t = true ∧ i ∈ ((cfg0.win 3).blk t).view.set := by
  have hi0 : (i 0).val < 8192 := (i 0).isLt
  have hi1 : (i 1).val < 6144 := (i 1).isLt
  obtain ⟨t, ht⟩ := proj0_idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [proj0_mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- After the 48 points the result array is the specification of the three arrays the region was entered with. -/
theorem projFinal0 (c : Dev nD) :
    (projDat0 (F := Ideal) V c).arrAt 3 cfg0.N = Cert.GruSpec.proj (V c main_arg0) (V c main_v5) (V c main_v1) :=
  (projDat0 (F := Ideal) V c).arrAt_eq_of_cover 3 (Cert.GruSpec.proj (V c main_arg0) (V c main_v5) (V c main_v1))
    (fun t _ => proj0_flushed_eq V c t) proj0_cover

end Cert.KernelIdeal.Gru

end
-- ==== Proof.KI.Proj1Value.lean ====
/- A projection  x · Wᵀ + b  as a pallas_call (number 1 of @main's three kernel regions): the value of its result array.
   The grid is 8 × 6; point t has coordinates (i, j). The body's payload at entry (p, q) of its 1024 × 1024 block is
       ∑ k < 2048, (activations' block)(p, k) · (weight's block)(k, q) + (bias' block)(q):
   a product into a zero accumulator is the plain sum on the extended reals, the change of format is the identity there,
   and the bias block, made a row and repeated down the rows, reads its entry q.
   The activations' block at (i, j) is rows 1024·i … of the array (all columns), the weight's is columns 1024·j … (all
   rows), the bias' is entries 1024·j …, and the result's block sits at rows 1024·i …, columns 1024·j …. So what point t
   writes back is block t of ONE function of the three arrays, the specification
       proj x wT b (r, cc) = ∑ k, x (r, k) · wT (k, cc) + b cc,
   and the 48 blocks tile the 8192 × 6144 result: entry (r, cc) lies in the block of the point with coordinates
   (r / 1024, cc / 1024). Hence after the last point the result array is proj of the three arrays as the region found them. -/
import proofs.«152705_j64793876628224_1_alg».proof.Proof.Gen.KernelIdeal.Launch
import proofs.«152705_j64793876628224_1_alg».proof.Proof.Gen.KernelIdeal.Skeleton
import proofs.«152705_j64793876628224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws
import proofs.«152705_j64793876628224_1_alg».proof.Proof.KI.Proj1Data
import proofs.«152705_j64793876628224_1_alg».proof.Proof.GruSpec

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's payload at an entry

The product's operand indices at output entry (p, q) and contraction position k are (p, k) on the left and (k, q) on the
right; the four coordinate facts, one per operand axis. -/

theorem lhs_proj1_0 (i : S1024x1024.Idx) (k : dot_S1024x2048_S2048x1024_S1024x1024_1_0_0_1_n_n.contr.Idx) :
    (dot_S1024x2048_S2048x1024_S1024x1024_1_0_0_1_n_n.lhsIdx i k 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs_proj1_1 (i : S1024x1024.Idx) (k : dot_S1024x2048_S2048x1024_S1024x1024_1_0_0_1_n_n.contr.Idx) :
    (dot_S1024x2048_S2048x1024_S1024x1024_1_0_0_1_n_n.lhsIdx i k 1).val = (k ⟨0, by decide⟩).val :=
  dot_S1024x2048_S2048x1024_S1024x1024_1_0_0_1_n_n.lhsIdx_val_of_single rfl i k
theorem rhs_proj1_0 (i : S1024x1024.Idx) (k : dot_S1024x2048_S2048x1024_S1024x1024_1_0_0_1_n_n.contr.Idx) :
    (dot_S1024x2048_S2048x1024_S1024x1024_1_0_0_1_n_n.rhsIdx i k 0).val = (k ⟨0, by decide⟩).val :=
  dot_S1024x2048_S2048x1024_S1024x1024_1_0_0_1_n_n.rhsIdx_val_of_single rfl i k
theorem rhs_proj1_1 (i : S1024x1024.Idx) (k : dot_S1024x2048_S2048x1024_S1024x1024_1_0_0_1_n_n.contr.Idx) :
    (dot_S1024x2048_S2048x1024_S1024x1024_1_0_0_1_n_n.rhsIdx i k 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The product into the zero accumulator, at entry (p, q): the sum over k of left (p, k) times right (k, q). -/
theorem proj1_dot_apply (a : FVec Ideal S1024x2048 .bf16) (b : FVec Ideal S2048x1024 .bf16) (p q : Fin 1024) :
    matmul dot_S1024x2048_S2048x1024_S1024x1024_1_0_0_1_n_n none a b (constant (F := Ideal) S1024x1024 .f32 0x00000000#32) (ix2 p q)
      = ∑ k : Fin 2048, a (ix2 p k) * b (ix2 k q) := by
  refine (Ideal.matmul_constant_zero_apply dot_S1024x2048_S2048x1024_S1024x1024_1_0_0_1_n_n none a b (ix2 p q)).trans ?_
  rw [← Equiv.sum_comp (ValueIdx.contrEquiv1 dot_S1024x2048_S2048x1024_S1024x1024_1_0_0_1_n_n 2048 rfl rfl).symm]
  refine Finset.sum_congr rfl fun k _ => ?_
  have hk := ValueIdx.contrEquiv1_symm_val dot_S1024x2048_S2048x1024_S1024x1024_1_0_0_1_n_n 2048 rfl rfl k
  have el : dot_S1024x2048_S2048x1024_S1024x1024_1_0_0_1_n_n.lhsIdx (ix2 p q) ((ValueIdx.contrEquiv1 dot_S1024x2048_S2048x1024_S1024x1024_1_0_0_1_n_n 2048 rfl rfl).symm k) = ix2 p k := funext fun ax => Fin.ext (by
    match ax with
    | ⟨0, _⟩ => exact lhs_proj1_0 _ _
    | ⟨1, _⟩ => exact (lhs_proj1_1 _ _).trans hk)
  have er : dot_S1024x2048_S2048x1024_S1024x1024_1_0_0_1_n_n.rhsIdx (ix2 p q) ((ValueIdx.contrEquiv1 dot_S1024x2048_S2048x1024_S1024x1024_1_0_0_1_n_n 2048 rfl rfl).symm k) = ix2 k q := funext fun ax => Fin.ext (by
    match ax with
    | ⟨0, _⟩ => exact (rhs_proj1_0 _ _).trans hk
    | ⟨1, _⟩ => exact rhs_proj1_1 _ _)
  rw [el, er]

/-- The bias block made a row and repeated down the rows, at entry (p, q): the bias at q. -/
theorem proj1_bias_apply (x2 : Vec Ideal S1024 .f32) (p q : Fin 1024) :
    broadcastTo S1024x1024 (shapeCast S1x1024 (shapeCast S1024 x2 shapeCasts_S1024_S1024) shapeCasts_S1024_S1x1024) broadcasts_S1x1024_S1024x1024 (ix2 p q)
      = x2 (ix1 q) :=
  (broadcastTo_1b_ab_apply _ broadcasts_S1x1024_S1024x1024 p q).trans
    ((shapeCast_a_1a_apply _ shapeCasts_S1024_S1x1024 (0 : Fin 1) q).trans
      (congrFun (shapeCast_self x2 shapeCasts_S1024_S1024) (ix1 q)))

/-- The payload at entry (p, q) of the result block: row p of the activations' block times column q of the weight's
    block, plus the bias block's entry q. The change of format is the identity on the extended reals. -/
theorem proj1_pay_apply (x0 : Vec Ideal S1024x2048 .f32) (x1 : Vec Ideal S2048x1024 .bf16) (x2 : Vec Ideal S1024 .f32) (p q : Fin 1024) :
    k1_pay1 x0 x1 x2 (ix2 p q) = (∑ k : Fin 2048, x0 (ix2 p k) * x1 (ix2 k q)) + x2 (ix1 q) := by
  unfold k1_pay1
  refine (addf_apply _ _ (ix2 p q)).trans ?_
  refine congrArg₂ (fun u v : EReal => u + v) ?_ (proj1_bias_apply x2 p q)
  refine (proj1_dot_apply _ _ p q).trans ?_
  rw [shapeCast_self]
  rfl

/-! ## The index maps over the grid

Point t of the 8 × 6 grid has coordinates (i, j). The activations' block index is (i, 0), the weight's (0, j), the bias'
(j), the result's (i, j): decided over the 48 points. -/

theorem proj1_idx_facts : ∀ t : Fin cfg1.N,
    win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 1) = win1_3.index t (1 : Fin 2)
    ∧ win1_3.index t (0 : Fin 2) ≤ 7 ∧ win1_3.index t (1 : Fin 2) ≤ 5 :=
  (by decide +kernel : ∀ t : Fin grid1.N, _)

/-- Every block of the result is some point's. -/
theorem proj1_idx_onto : ∀ (q0 : Fin 8) (q1 : Fin 6), ∃ t : Fin cfg1.N, win1_3.index t = ![q0.val, q1.val] :=
  (by decide +kernel : ∀ (q0 : Fin 8) (q1 : Fin 6), ∃ t : Fin grid1.N, win1_3.index t = ![q0.val, q1.val])

/-! ## What a point writes back

Over variables: if the three blocks are the arrays read at row offset 1024·i₀ and column offset 1024·j₀, the payload at
entry (p, q) is the specification at (1024·i₀ + p, 1024·j₀ + q). -/

theorem proj1_block_eq (A : Cert.GruSpec.SAct.Idx → EReal) (B : Cert.GruSpec.SWgtT.Idx → EReal) (C : Cert.GruSpec.SBias.Idx → EReal)
    (x0 : Vec Ideal S1024x2048 .f32) (x1 : Vec Ideal S2048x1024 .bf16) (x2 : Vec Ideal S1024 .f32)
    (i₀ j₀ : ℕ) (hi : i₀ ≤ 7) (hj : j₀ ≤ 5)
    (h0 : ∀ (p : Fin 1024) (k : Fin 2048), x0 (ix2 p k) = A (ix2 (⟨i₀ * 1024 + p.val, by have := p.isLt; omega⟩ : Fin 8192) k))
    (h1 : ∀ (k : Fin 2048) (q : Fin 1024), x1 (ix2 k q) = B (ix2 k (⟨j₀ * 1024 + q.val, by have := q.isLt; omega⟩ : Fin 6144)))
    (h2 : ∀ q : Fin 1024, x2 (ix1 q) = C (ix1 (⟨j₀ * 1024 + q.val, by have := q.isLt; omega⟩ : Fin 6144)))
    (p q : Fin 1024) :
    k1_pay1 x0 x1 x2 (ix2 p q)
      = Cert.GruSpec.proj A B C (ix2 (⟨i₀ * 1024 + p.val, by have := p.isLt; omega⟩ : Fin 8192) (⟨j₀ * 1024 + q.val, by have := q.isLt; omega⟩ : Fin 6144)) := by
  refine (proj1_pay_apply x0 x1 x2 p q).trans ?_
  rw [h2 q]
  refine congrArg₂ (fun u v : EReal => u + v) (Finset.sum_congr rfl fun k _ => ?_) rfl
  rw [h0 p k, h1 k q]

variable (V : (c : Dev nD) → (b : Ref sig .tc) → Buf (Elt Ideal) ((c : Thread nD τ).loc b))

theorem proj1_hz2 : (![0, 0] : Fin 2 → Nat) = fun _ => 0 := funext fun a => by fin_cases a <;> rfl
theorem proj1_hz1 : (![0] : Fin 1 → Nat) = fun _ => 0 := funext fun a => by fin_cases a <;> rfl

/-- What point t writes back is block t of the specification of the three arrays as the region finds them. -/
theorem proj1_flushed_eq (c : Dev nD) (t : Fin cfg1.N) :
    (projDat1 (F := Ideal) V c).flushed 3 t
      = ((cfg1.win 3).blk t).view.read (Elt Ideal) (Cert.GruSpec.proj (V c main_arg1) (V c main_v7) (V c main_v3)) := by
  show (cfg1.win 3).cut (grid1.coords t) ((projDat1 (F := Ideal) V c).after 3 t) = _
  rw [projDat1_after3]
  unfold projOut1
  rw [View.canon_unit_zero proj1_hz2]
  simp only [View.ld_unit_zero (S := S1024x2048) proj1_hz2, View.ld_unit_zero (S := S2048x1024) proj1_hz2, View.ld_unit_zero (S := S1024) proj1_hz1]
  obtain ⟨e0, e1, e2, e3, e4, e5, e6⟩ := proj1_idx_facts t
  refine funext fun (j : S1024x1024.Idx) => ?_
  obtain ⟨p, q, rfl⟩ : ∃ (p q : Fin 1024), j = ix2 p q := ⟨j 0, j 1, eq_ix2 j⟩
  show k1_pay1 (winBlock1 V c 0 t) (winBlock1 V c 1 t) (winBlock1 V c 2 t) (ix2 p q)
    = Cert.GruSpec.proj (V c main_arg1) (V c main_v7) (V c main_v3) (((cfg1.win 3).blk t).view.emb (ix2 p q))
  refine (proj1_block_eq (V c main_arg1) (V c main_v7) (V c main_v3) (winBlock1 V c 0 t) (winBlock1 V c 1 t) (winBlock1 V c 2 t)
    (win1_3.index t (0 : Fin 2)) (win1_3.index t (1 : Fin 2)) e5 e6 ?_ ?_ ?_ p q).trans ?_
  · intro p k
    show V c main_arg1 (((cfg1.win 0).blk t).view.emb (ix2 p k)) = _
    refine congrArg (V c main_arg1) (funext fun a => Fin.ext ?_)
    match a with
    | ⟨0, _⟩ => show win1_0.index t (0 : Fin 2) * 1024 + 1 * p.val = win1_3.index t (0 : Fin 2) * 1024 + p.val; omega
    | ⟨1, _⟩ => show win1_0.index t (1 : Fin 2) * 2048 + 1 * k.val = k.val; omega
  · intro k q
    show V c main_v7 (((cfg1.win 1).blk t).view.emb (ix2 k q)) = _
    refine congrArg (V c main_v7) (funext fun a => Fin.ext ?_)
    match a with
    | ⟨0, _⟩ => show win1_1.index t (0 : Fin 2) * 2048 + 1 * k.val = k.val; omega
    | ⟨1, _⟩ => show win1_1.index t (1 : Fin 2) * 1024 + 1 * q.val = win1_3.index t (1 : Fin 2) * 1024 + q.val; omega
  · intro q
    show V c main_v3 (((cfg1.win 2).blk t).view.emb (ix1 q)) = _
    refine congrArg (V c main_v3) (funext fun a => Fin.ext ?_)
    match a with
    | ⟨0, _⟩ => show win1_2.index t (0 : Fin 1) * 1024 + 1 * q.val = win1_3.index t (1 : Fin 2) * 1024 + q.val; omega
  · refine congrArg (Cert.GruSpec.proj (V c main_arg1) (V c main_v7) (V c main_v3)) (funext fun a => Fin.ext ?_)
    match a with
    | ⟨0, _⟩ => show win1_3.index t (0 : Fin 2) * 1024 + p.val = win1_3.index t (0 : Fin 2) * 1024 + 1 * p.val; omega
    | ⟨1, _⟩ => show win1_3.index t (1 : Fin 2) * 1024 + q.val = win1_3.index t (1 : Fin 2) * 1024 + 1 * q.val; omega

/-! ## From the blocks to the array -/

/-- An entry of the result array is in point t's block iff each coordinate is in the block's range on its axis. -/
theorem proj1_mem_blk (t : Fin cfg1.N) (i : S8192x6144.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v9).slice (win1_3.rect t)).set ↔ _
  rw [View.set_slice_whole, Rect.mem_set_unit]
  exact Iff.rfl

/-- The 48 blocks tile the result: entry (r, cc) is in the block of the point whose coordinates are (r / 1024, cc / 1024). -/
theorem proj1_cover (i : S8192x6144.Idx) :
    ∃ t : Fin cfg1.N, (cfg1.win 3).flush t = true ∧ i ∈ ((cfg1.win 3).blk t).view.set := by
  have hi0 : (i 0).val < 8192 := (i 0).isLt
  have hi1 : (i 1).val < 6144 := (i 1).isLt
  obtain ⟨t, ht⟩ := proj1_idx_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [proj1_mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- After the 48 points the result array is the specification of the three arrays the region was entered with. -/
theorem projFinal1 (c : Dev nD) :
    (projDat1 (F := Ideal) V c).arrAt 3 cfg1.N = Cert.GruSpec.proj (V c main_arg1) (V c main_v7) (V c main_v3) :=
  (projDat1 (F := Ideal) V c).arrAt_eq_of_cover 3 (Cert.GruSpec.proj (V c main_arg1) (V c main_v7) (V c main_v3))
    (fun t _ => proj1_flushed_eq V c t) proj1_cover

end Cert.KernelIdeal.Gru

end
-- ==== Proof.KI.CellValue.lean ====
/- The gating pallas_call (the third): the VALUE of its region at the ideal instance.
   At grid point t the body reads rows 256·t … 256·t + 255 of both tables of gate pre-activations and of the old hidden
   state, and stores the 256 × 2048 block
       (1 − z) · n + z · h,   z = logistic (gi_z + gh_z),  r = logistic (gi_r + gh_r),  n = tanh (gi_n + r · gh_n),
   where gate g of hidden unit q is column q + 2048·g of a table's row.  Entry by entry that is block t of
   GruSpec.cell of the three arrays the region was entered with; the 32 blocks tile the 8192 rows (row r lies in the block of
   point r / 256), so after the 32 points the output array is GruSpec.cell of those arrays. -/
import proofs.«152705_j64793876628224_1_alg».proof.Proof.Gen.KernelIdeal.Launch
import proofs.«152705_j64793876628224_1_alg».proof.Proof.Gen.KernelIdeal.Skeleton
import proofs.«152705_j64793876628224_1_alg».proof.Proof.Gen.KernelIdeal.Points
import proofs.«152705_j64793876628224_1_alg».proof.Proof.KI.CellData
import proofs.«152705_j64793876628224_1_alg».proof.Proof.GruSpec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Ring
import Idealize.ShloMosaic.Lib.Tactic

set_option maxRecDepth 16384

noncomputable section

namespace Cert.KernelIdeal.Gru

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- Gate g's column of hidden unit q within a row of 6144 gate columns. -/
abbrev gcol (g : Fin 3) (q : Fin 2048) : Fin 6144 :=
  ⟨q.val + 2048 * g.val, by have h1 := q.isLt; have h2 := g.isLt; omega⟩

/-- Row p of block t among the 8192 rows. -/
abbrev brow (t : Fin 32) (p : Fin 256) : Fin 8192 :=
  ⟨t.val * 256 + p.val, by have h1 := p.isLt; have h2 := t.isLt; omega⟩

theorem hz2 : (![0, 0] : Fin 2 → Nat) = fun _ => 0 := funext fun a => by fin_cases a <;> rfl

/-- The payload at an entry. -/
theorem pay_apply (a0 a1 a2 b0 b1 b2 h : Vec Ideal S256x2048 .f32) (p : Fin 256) (q : Fin 2048) :
    k2_pay1 (F := Ideal) a0 a1 a2 b0 b1 b2 h (ix2 p q)
      = (1 - Ideal.logistic (a1 (ix2 p q) + b1 (ix2 p q)))
          * Ideal.tanh (a2 (ix2 p q) + Ideal.logistic (a0 (ix2 p q) + b0 (ix2 p q)) * b2 (ix2 p q))
        + Ideal.logistic (a1 (ix2 p q) + b1 (ix2 p q)) * h (ix2 p q) := by
  unfold k2_pay1
  simp only [shapeCast_self]
  show ((Ideal.ofBits .f32 0x3F800000#32 : EReal) - Ideal.logistic (a1 (ix2 p q) + b1 (ix2 p q)))
          * Ideal.tanh (a2 (ix2 p q) + Ideal.logistic (a0 (ix2 p q) + b0 (ix2 p q)) * b2 (ix2 p q))
        + Ideal.logistic (a1 (ix2 p q) + b1 (ix2 p q)) * h (ix2 p q) = _
  rw [Ideal.ofBits_one_f32]

/-- The three gate slices of a table's block, loaded, at an entry: column q of slice g is column q + 2048·g of the block. -/
theorem ld_reset (x : Vec Ideal S256x6144 .f32) (p : Fin 256) (q : Fin 2048) :
    View.ld x resetRect (ix2 p q) = x (ix2 p (gcol 0 q)) := by
  show x (resetRect.idx (ix2 p q)) = _
  congr 1
  funext a; apply Fin.ext
  match a with
  | ⟨0, _⟩ => show 0 + 1 * p.val = p.val; omega
  | ⟨1, _⟩ => show 0 + 1 * q.val = q.val + 2048 * 0; omega

theorem ld_update (x : Vec Ideal S256x6144 .f32) (p : Fin 256) (q : Fin 2048) :
    View.ld x updateRect (ix2 p q) = x (ix2 p (gcol 1 q)) := by
  show x (updateRect.idx (ix2 p q)) = _
  congr 1
  funext a; apply Fin.ext
  match a with
  | ⟨0, _⟩ => show 0 + 1 * p.val = p.val; omega
  | ⟨1, _⟩ => show 2048 + 1 * q.val = q.val + 2048 * 1; omega

theorem ld_cand (x : Vec Ideal S256x6144 .f32) (p : Fin 256) (q : Fin 2048) :
    View.ld x candRect (ix2 p q) = x (ix2 p (gcol 2 q)) := by
  show x (candRect.idx (ix2 p q)) = _
  congr 1
  funext a; apply Fin.ext
  match a with
  | ⟨0, _⟩ => show 0 + 1 * p.val = p.val; omega
  | ⟨1, _⟩ => show 4096 + 1 * q.val = q.val + 2048 * 2; omega

/-- What the body leaves in the output block, at an entry, from the three input blocks. -/
theorem cellOut2_apply (x0 x1 : Vec Ideal S256x6144 .f32) (x2 : Vec Ideal S256x2048 .f32) (p : Fin 256) (q : Fin 2048) :
    cellOut2 x0 x1 x2 (ix2 p q)
      = (1 - Ideal.logistic (x0 (ix2 p (gcol 1 q)) + x1 (ix2 p (gcol 1 q))))
          * Ideal.tanh (x0 (ix2 p (gcol 2 q)) + Ideal.logistic (x0 (ix2 p (gcol 0 q)) + x1 (ix2 p (gcol 0 q))) * x1 (ix2 p (gcol 2 q)))
        + Ideal.logistic (x0 (ix2 p (gcol 1 q)) + x1 (ix2 p (gcol 1 q))) * x2 (ix2 p q) := by
  unfold cellOut2
  rw [View.canon_unit_zero hz2, pay_apply, ld_reset, ld_reset, ld_update, ld_update, ld_cand, ld_cand,
    View.ld_unit_zero (S := S256x2048) hz2]

/-- The printed index maps, decided over the grid: every window's block index at point t is (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- A grid point as a number below 32. -/
abbrev pt (t : Fin cfg2.N) : Fin 32 := ⟨t.val, lt_of_lt_of_eq t.isLt N_2⟩

/-- The first table's block at point t, at an entry: rows 256·t … of the array. -/
theorem winBlock2_0_apply (c : Dev nD) (t : Fin cfg2.N) (p : Fin 256) (r : Fin 6144) :
    winBlock2 (F := Ideal) V c 0 t (ix2 p r) = V c main_v8 (ix2 (brow (pt t) p) r) := by
  unfold winBlock2
  show V c main_v8 (((cfg2.win 0).blk t).view.emb (ix2 p r)) = _
  congr 1
  obtain ⟨e0, e1, -⟩ := idx_facts t
  funext a; apply Fin.ext
  match a with
  | ⟨0, _⟩ => show win2_0.index t (0 : Fin 2) * 256 + 1 * p.val = t.val * 256 + p.val; rw [e0]; omega
  | ⟨1, _⟩ => show win2_0.index t (1 : Fin 2) * 6144 + 1 * r.val = r.val; rw [e1]; omega

theorem winBlock2_1_apply (c : Dev nD) (t : Fin cfg2.N) (p : Fin 256) (r : Fin 6144) :
    winBlock2 (F := Ideal) V c 1 t (ix2 p r) = V c main_v9 (ix2 (brow (pt t) p) r) := by
  unfold winBlock2
  show V c main_v9 (((cfg2.win 1).blk t).view.emb (ix2 p r)) = _
  congr 1
  obtain ⟨-, -, e0, e1, -⟩ := idx_facts t
  funext a; apply Fin.ext
  match a with
  | ⟨0, _⟩ => show win2_1.index t (0 : Fin 2) * 256 + 1 * p.val = t.val * 256 + p.val; rw [e0]; omega
  | ⟨1, _⟩ => show win2_1.index t (1 : Fin 2) * 6144 + 1 * r.val = r.val; rw [e1]; omega

theorem winBlock2_2_apply (c : Dev nD) (t : Fin cfg2.N) (p : Fin 256) (q : Fin 2048) :
    winBlock2 (F := Ideal) V c 2 t (ix2 p q) = V c main_arg1 (ix2 (brow (pt t) p) q) := by
  unfold winBlock2
  show V c main_arg1 (((cfg2.win 2).blk t).view.emb (ix2 p q)) = _
  congr 1
  obtain ⟨-, -, -, -, e0, e1, -⟩ := idx_facts t
  funext a; apply Fin.ext
  match a with
  | ⟨0, _⟩ => show win2_2.index t (0 : Fin 2) * 256 + 1 * p.val = t.val * 256 + p.val; rw [e0]; omega
  | ⟨1, _⟩ => show win2_2.index t (1 : Fin 2) * 2048 + 1 * q.val = q.val; rw [e1]; omega

/-- Entry (p, q) of the output's block at point t sits in the array at row 256·t + p, column q. -/
theorem blk3_emb (t : Fin cfg2.N) (p : Fin 256) (q : Fin 2048) :
    ((cfg2.win 3).blk t).view.emb (ix2 p q) = (ix2 (brow (pt t) p) q : S8192x2048.Idx) := by
  obtain ⟨-, -, -, -, -, -, e0, e1⟩ := idx_facts t
  funext a; apply Fin.ext
  match a with
  | ⟨0, _⟩ => show win2_3.index t (0 : Fin 2) * 256 + 1 * p.val = t.val * 256 + p.val; rw [e0]; omega
  | ⟨1, _⟩ => show win2_3.index t (1 : Fin 2) * 2048 + 1 * q.val = q.val; rw [e1]; omega

/-- What point t writes back is block t of the cell of the three arrays the region was entered with. -/
theorem flushed3_eq (c : Dev nD) (t : Fin cfg2.N) :
    (cellDat2 (F := Ideal) V c).flushed 3 t
      = ((cfg2.win 3).blk t).view.read (Elt Ideal) (Cert.GruSpec.cell (V c main_v8) (V c main_v9) (V c main_arg1)) := by
  show (cfg2.win 3).cut (grid2.coords t) ((cellDat2 V c).after 3 t) = _
  rw [cellDat2_after3]
  funext j
  obtain ⟨p, q, rfl⟩ : ∃ (p : Fin 256) (q : Fin 2048), j = ix2 p q := ⟨j 0, j 1, eq_ix2 j⟩
  show cellOut2 (winBlock2 V c 0 t) (winBlock2 V c 1 t) (winBlock2 V c 2 t) (ix2 p q)
    = Cert.GruSpec.cell (V c main_v8) (V c main_v9) (V c main_arg1) (((cfg2.win 3).blk t).view.emb (ix2 p q))
  rw [cellOut2_apply, blk3_emb]
  simp only [winBlock2_0_apply, winBlock2_1_apply, winBlock2_2_apply]
  rfl

/-- An index of the array is in point t's block iff each coordinate is in the block's range on its axis. -/
theorem mem_blk3 (t : Fin cfg2.N) (i : S8192x2048.Idx) :
    i ∈ ((cfg2.win 3).blk t).view.set ↔ ∀ a : Fin 2, win2_3.index t a * S256x2048.size a ≤ (i a).val
      ∧ (i a).val < win2_3.index t a * S256x2048.size a + S256x2048.size a := by
  show i ∈ ((View.whole main_v10).slice (win2_3.rect t)).set ↔ _
  rw [View.set_slice_whole, Rect.mem_set_unit]
  exact Iff.rfl

/-- Every index of the array is in some point's block: row r in that of point r / 256. -/
theorem cover3 (i : S8192x2048.Idx) :
    ∃ t : Fin cfg2.N, (cfg2.win 3).flush t = true ∧ i ∈ ((cfg2.win 3).blk t).view.set := by
  have hi0 : (i 0).val < 8192 := (i 0).isLt
  have hi1 : (i 1).val < 2048 := (i 1).isLt
  have ht : (i 0).val / 256 < cfg2.N := by rw [show cfg2.N = 32 from N_2]; omega
  refine ⟨⟨(i 0).val / 256, ht⟩, flush2_3 _, ?_⟩
  rw [mem_blk3]
  obtain ⟨-, -, -, -, -, -, e0, e1⟩ := idx_facts ⟨(i 0).val / 256, ht⟩
  intro a
  match a with
  | ⟨0, _⟩ =>
    show win2_3.index ⟨(i 0).val / 256, ht⟩ (0 : Fin 2) * 256 ≤ (i 0).val
      ∧ (i 0).val < win2_3.index ⟨(i 0).val / 256, ht⟩ (0 : Fin 2) * 256 + 256
    rw [e0]; show (i 0).val / 256 * 256 ≤ (i 0).val ∧ (i 0).val < (i 0).val / 256 * 256 + 256; omega
  | ⟨1, _⟩ =>
    show win2_3.index ⟨(i 0).val / 256, ht⟩ (1 : Fin 2) * 2048 ≤ (i 1).val
      ∧ (i 1).val < win2_3.index ⟨(i 0).val / 256, ht⟩ (1 : Fin 2) * 2048 + 2048
    rw [e1]; omega

/-- The new state's array after the region's 32 points: the cell of the three arrays the region was entered with. -/
theorem cellFinal (c : Dev nD) :
    (cellDat2 (F := Ideal) V c).arrAt 3 cfg2.N = Cert.GruSpec.cell (V c main_v8) (V c main_v9) (V c main_arg1) :=
  (cellDat2 (F := Ideal) V c).arrAt_eq_of_cover 3 _ (fun t _ => flushed3_eq V c t) cover3

end Cert.KernelIdeal.Gru

end
-- ==== Proof.Ref.IsSpec.lean ====
/- The reference's result, on the extended reals, is the specification's cell.

   The reference forms gi = x · Wiᵀ + bi and gh = h · Whᵀ + bh as two products with a transposed weight table plus a
   broadcast bias row, cuts each into its three column blocks (reset, update, candidate), spells the logistic as
   1 / (1 + exp (−v)) with the constant one given by its bit pattern, and returns (1 − z) · n + z · h.  Read at an
   entry i, each stage is the corresponding piece of GruSpec.cell of the two GruSpec.proj tables: the index functions
   of the layout operations are the specification's actAt, wgtAt, biasAt and gateCol, and the quotient is the logistic.
   The transposed weight tables and the bias rows stay the opaque arrays the reference builds by concatenation. -/
import proofs.«152705_j64793876628224_1_alg».proof.Proof.Gen.ReferenceIdeal.Read
import proofs.«152705_j64793876628224_1_alg».proof.Proof.GruSpec
import Idealize.ShloMosaic.Lib.IdealHost
import Idealize.ShloMosaic.PureOps.Ideal.Laws
import Idealize.ShloMosaic.Lib.ValueIdx

noncomputable section

namespace Cert.ReferenceIdeal.RefSpec

open Cert.ReferenceIdeal Cert.ReferenceIdeal.Gen Cert.ReferenceIdeal.Read Idealize.ShloMosaic Idealize.ShloMosaic.TcCoe Idealize.SL.Sem Idealize.ShloMosaic.StableHlo
open Cert.GruSpec Idealize.ShloMosaic.ValueIdx

/-! ### The index functions of the reference are the specification's -/

theorem lidx5_eq (i : S8192x6144.Idx) (k : Fin 2048) : lidx_main_v5 i k = actAt i k :=
  funext fun a => by match a with | ⟨0, _⟩ => rfl | ⟨1, _⟩ => rfl

theorem ridx5_eq (i : S8192x6144.Idx) (k : Fin 2048) : ridx_main_v5 i k = wgtAt i k :=
  funext fun a => by match a with | ⟨0, _⟩ => rfl | ⟨1, _⟩ => rfl

theorem lidx10_eq (i : S8192x6144.Idx) (k : Fin 2048) : lidx_main_v10 i k = actAt i k :=
  funext fun a => by match a with | ⟨0, _⟩ => rfl | ⟨1, _⟩ => rfl

theorem ridx10_eq (i : S8192x6144.Idx) (k : Fin 2048) : ridx_main_v10 i k = wgtAt i k :=
  funext fun a => by match a with | ⟨0, _⟩ => rfl | ⟨1, _⟩ => rfl

theorem bias7_eq (i : S8192x6144.Idx) : idx_main_v6 (idx_main_v7 i) = biasAt i :=
  funext fun a => by match a with | ⟨0, _⟩ => rfl

theorem bias12_eq (i : S8192x6144.Idx) : idx_main_v11 (idx_main_v12 i) = biasAt i :=
  funext fun a => by match a with | ⟨0, _⟩ => rfl

theorem col14_eq (i : S8192x2048.Idx) : idx_main_v14 i = gateCol 0 i :=
  funext fun a => Fin.ext (by
    match a with
    | ⟨0, _⟩ => rfl
    | ⟨1, _⟩ => show (i 1).val = (i 1).val + 2048 * 0; omega)

theorem col15_eq (i : S8192x2048.Idx) : idx_main_v15 i = gateCol 1 i :=
  funext fun a => Fin.ext (by
    match a with
    | ⟨0, _⟩ => rfl
    | ⟨1, _⟩ => show 2048 + (i 1).val = (i 1).val + 2048 * 1; omega)

theorem col16_eq (i : S8192x2048.Idx) : idx_main_v16 i = gateCol 2 i :=
  funext fun a => Fin.ext (by
    match a with
    | ⟨0, _⟩ => rfl
    | ⟨1, _⟩ => show 4096 + (i 1).val = (i 1).val + 2048 * 2; omega)

theorem col17_eq (i : S8192x2048.Idx) : idx_main_v17 i = gateCol 0 i :=
  funext fun a => Fin.ext (by
    match a with
    | ⟨0, _⟩ => rfl
    | ⟨1, _⟩ => show (i 1).val = (i 1).val + 2048 * 0; omega)

theorem col18_eq (i : S8192x2048.Idx) : idx_main_v18 i = gateCol 1 i :=
  funext fun a => Fin.ext (by
    match a with
    | ⟨0, _⟩ => rfl
    | ⟨1, _⟩ => show 2048 + (i 1).val = (i 1).val + 2048 * 1; omega)

theorem col19_eq (i : S8192x2048.Idx) : idx_main_v19 i = gateCol 2 i :=
  funext fun a => Fin.ext (by
    match a with
    | ⟨0, _⟩ => rfl
    | ⟨1, _⟩ => show 4096 + (i 1).val = (i 1).val + 2048 * 2; omega)

/-! ### The two gate tables -/

/-- The input-side table: the product of the activations with the transposed weights, plus the bias row. -/
theorem gi_eq (x0 : (⟨S8192x2048, .f32⟩ : BufTy).Contents (Elt Ideal)) (x2 x6 x10 : (⟨S2048x2048, .f32⟩ : BufTy).Contents (Elt Ideal))
    (x3 x7 x11 : (⟨S2048, .f32⟩ : BufTy).Contents (Elt Ideal)) (j : S8192x6144.Idx) :
    val_main_v8 (F := Ideal) x0 x2 x3 x6 x7 x10 x11 j
      = proj x0 (val_main_v4 (F := Ideal) x2 x6 x10) (val_main_v1 (F := Ideal) x3 x7 x11) j := by
  rw [val_main_v8_apply, val_main_v5_apply, val_main_v7_apply, val_main_v6_apply, bias7_eq]
  simp only [lidx5_eq, ridx5_eq]
  rfl

/-- The hidden-side table, the same from the old state. -/
theorem gh_eq (x1 : (⟨S8192x2048, .f32⟩ : BufTy).Contents (Elt Ideal)) (x4 x8 x12 : (⟨S2048x2048, .f32⟩ : BufTy).Contents (Elt Ideal))
    (x5 x9 x13 : (⟨S2048, .f32⟩ : BufTy).Contents (Elt Ideal)) (j : S8192x6144.Idx) :
    val_main_v13 (F := Ideal) x1 x4 x5 x8 x9 x12 x13 j
      = proj x1 (val_main_v9 (F := Ideal) x4 x8 x12) (val_main_v3 (F := Ideal) x5 x9 x13) j := by
  rw [val_main_v13_apply, val_main_v10_apply, val_main_v12_apply, val_main_v11_apply, bias12_eq]
  simp only [lidx10_eq, ridx10_eq]
  rfl

/-! ### The logistic, spelt by the reference as a quotient -/

/-- One over one plus the exponential of the negation, with the constant read from its bit pattern, is the logistic. -/
theorem logistic_spelt (v : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf v)))
      = Ideal.logistic v := by
  rw [Ideal.ofBits_def, Ideal.ofBits_one_f32]
  rfl

/-- The reset gate. -/
theorem reset_eq (x0 x1 : (⟨S8192x2048, .f32⟩ : BufTy).Contents (Elt Ideal)) (x2 x4 x6 x8 x10 x12 : (⟨S2048x2048, .f32⟩ : BufTy).Contents (Elt Ideal)) (x3 x5 x7 x9 x11 x13 : (⟨S2048, .f32⟩ : BufTy).Contents (Elt Ideal)) (i : S8192x2048.Idx) :
    val_main_v26 (F := Ideal) x0 x1 x2 x3 x4 x5 x6 x7 x8 x9 x10 x11 x12 x13 i
      = Ideal.logistic ((proj x0 (val_main_v4 (F := Ideal) x2 x6 x10) (val_main_v1 (F := Ideal) x3 x7 x11)) (gateCol 0 i) + (proj x1 (val_main_v9 (F := Ideal) x4 x8 x12) (val_main_v3 (F := Ideal) x5 x9 x13)) (gateCol 0 i)) := by
  rw [val_main_v26_apply, val_main_v25_apply, val_main_cst_0_apply, val_main_v24_apply, val_main_v23_apply,
    val_main_cst_apply, val_main_v22_apply, val_main_v21_apply, val_main_v20_apply, val_main_v14_apply,
    val_main_v17_apply, col14_eq, col17_eq, gi_eq, gh_eq, logistic_spelt]
  rfl

/-- The update gate. -/
theorem update_eq (x0 x1 : (⟨S8192x2048, .f32⟩ : BufTy).Contents (Elt Ideal)) (x2 x4 x6 x8 x10 x12 : (⟨S2048x2048, .f32⟩ : BufTy).Contents (Elt Ideal)) (x3 x5 x7 x9 x11 x13 : (⟨S2048, .f32⟩ : BufTy).Contents (Elt Ideal)) (i : S8192x2048.Idx) :
    val_main_v33 (F := Ideal) x0 x1 x2 x3 x4 x5 x6 x7 x8 x9 x10 x11 x12 x13 i
      = Ideal.logistic ((proj x0 (val_main_v4 (F := Ideal) x2 x6 x10) (val_main_v1 (F := Ideal) x3 x7 x11)) (gateCol 1 i) + (proj x1 (val_main_v9 (F := Ideal) x4 x8 x12) (val_main_v3 (F := Ideal) x5 x9 x13)) (gateCol 1 i)) := by
  rw [val_main_v33_apply, val_main_v32_apply, val_main_cst_2_apply, val_main_v31_apply, val_main_v30_apply,
    val_main_cst_1_apply, val_main_v29_apply, val_main_v28_apply, val_main_v27_apply, val_main_v15_apply,
    val_main_v18_apply, col15_eq, col18_eq, gi_eq, gh_eq, logistic_spelt]
  rfl

/-- The candidate state. -/
theorem cand_eq (x0 x1 : (⟨S8192x2048, .f32⟩ : BufTy).Contents (Elt Ideal)) (x2 x4 x6 x8 x10 x12 : (⟨S2048x2048, .f32⟩ : BufTy).Contents (Elt Ideal)) (x3 x5 x7 x9 x11 x13 : (⟨S2048, .f32⟩ : BufTy).Contents (Elt Ideal)) (i : S8192x2048.Idx) :
    val_main_v36 (F := Ideal) x0 x1 x2 x3 x4 x5 x6 x7 x8 x9 x10 x11 x12 x13 i
      = Ideal.tanh ((proj x0 (val_main_v4 (F := Ideal) x2 x6 x10) (val_main_v1 (F := Ideal) x3 x7 x11)) (gateCol 2 i)
          + Ideal.logistic ((proj x0 (val_main_v4 (F := Ideal) x2 x6 x10) (val_main_v1 (F := Ideal) x3 x7 x11)) (gateCol 0 i) + (proj x1 (val_main_v9 (F := Ideal) x4 x8 x12) (val_main_v3 (F := Ideal) x5 x9 x13)) (gateCol 0 i)) * (proj x1 (val_main_v9 (F := Ideal) x4 x8 x12) (val_main_v3 (F := Ideal) x5 x9 x13)) (gateCol 2 i)) := by
  rw [val_main_v36_apply, val_main_v35_apply, val_main_v34_apply, val_main_v16_apply, val_main_v19_apply,
    col16_eq, col19_eq, gi_eq, gh_eq, reset_eq]
  rfl

/-! ### The result -/

theorem result_is_cell (x0 x1 : (⟨S8192x2048, .f32⟩ : BufTy).Contents (Elt Ideal)) (x2 x4 x6 x8 x10 x12 : (⟨S2048x2048, .f32⟩ : BufTy).Contents (Elt Ideal)) (x3 x5 x7 x9 x11 x13 : (⟨S2048, .f32⟩ : BufTy).Contents (Elt Ideal)) :
    val_main_v41 (F := Ideal) x0 x1 x2 x3 x4 x5 x6 x7 x8 x9 x10 x11 x12 x13
      = Cert.GruSpec.cell (Cert.GruSpec.proj x0 (val_main_v4 (F := Ideal) x2 x6 x10) (val_main_v1 (F := Ideal) x3 x7 x11))
          (Cert.GruSpec.proj x1 (val_main_v9 (F := Ideal) x4 x8 x12) (val_main_v3 (F := Ideal) x5 x9 x13)) x1 := by
  funext i
  rw [val_main_v41_apply, val_main_v39_apply, val_main_v40_apply, val_main_v38_apply, val_main_v37_apply,
    val_main_cst_3_apply, update_eq, cand_eq, Ideal.ofBits_def, Ideal.ofBits_one_f32]
  rfl

end Cert.ReferenceIdeal.RefSpec

end
-- ==== Proof.lean ====
/- A GRU cell as three kernels — two projections  x · Wᵀ + b  (one over the input, one over the hidden state, each with
   its three gates' weight tables joined, transposed and re-formatted on the host) and a pointwise gating — against jnp's
   same cell on the host.

   On the extended reals both programs compute, entry by entry,
       h' = (1 − z) · n + z · h,   r = logistic (gi_r + gh_r),  z = logistic (gi_z + gh_z),  n = tanh (gi_n + r · gh_n),
   with gi = x · Wiᵀ + bi and gh = h · Whᵀ + bh read at the three gate columns (Proof/GruSpec.lean: `proj`, `cell`).
   Nothing is re-associated: each entry of gi and gh is ONE sum over the 2048 inputs in both programs (the kernel's blocks
   split rows and gate columns, never the contraction), a change of float format is the identity, the kernel's `logistic`
   is the reference's  1 / (1 + exp (−v)),  and the host operations that join and transpose the weights are the same text
   in both programs, so they are never opened. No finiteness is needed, and the precondition is not used.

   The frames: the run of @main as one host segment and three pipelined kernel regions (Proof/KI/Run.lean for the
   idealized kernel, Proof/K/Run.lean for the word-level one: the same text at the other program), each region's body run
   symbolically once on whole staging buffers (Proof/KI/Proj0Body.lean, Proj1Body.lean, CellBody.lean).
   The values: each region's output array as one whole-array function of the arrays it was entered with
   (Proof/KI/Proj0Value.lean, Proj1Value.lean, CellValue.lean), chained through what each region finds
   (Proof/KI/Reads.lean); the reference's result as the same function (Proof/Ref/IsSpec.lean over the generated run and
   its read-at-an-index lemmas). -/
import proofs.«152705_j64793876628224_1_alg».proof.Defs
import proofs.«152705_j64793876628224_1_alg».proof.Proof.Gen.Kernel
import proofs.«152705_j64793876628224_1_alg».proof.Proof.Gen.KernelIdeal
import proofs.«152705_j64793876628224_1_alg».proof.Proof.Gen.ReferenceIdeal
import proofs.«152705_j64793876628224_1_alg».proof.Proof.Gen.ReferenceIdeal.Run
import proofs.«152705_j64793876628224_1_alg».proof.Proof.Gen.ReferenceIdeal.Read
import proofs.«152705_j64793876628224_1_alg».proof.Proof.Gen.Pre_finite_inputs
import proofs.«152705_j64793876628224_1_alg».proof.Proof.K.Run
import proofs.«152705_j64793876628224_1_alg».proof.Proof.KI.Reads
import proofs.«152705_j64793876628224_1_alg».proof.Proof.KI.Proj0Value
import proofs.«152705_j64793876628224_1_alg».proof.Proof.KI.Proj1Value
import proofs.«152705_j64793876628224_1_alg».proof.Proof.KI.CellValue
import proofs.«152705_j64793876628224_1_alg».proof.Proof.Ref.IsSpec
import Idealize.ShloMosaic.Adequacy
import Idealize.ShloMosaic.Init

noncomputable section

namespace Cert.Proof

open Idealize.ShloMosaic Idealize.ShloMosaic.TcCoe Idealize.SL.Sem

/-! ## The kernel's result, at the ideal instance -/

section KernelValue

open Cert.KernelIdeal Cert.KernelIdeal.Gen Cert.KernelIdeal.Gru

variable (m : (ℓ : Loc Cert.KernelIdeal.nD Cert.KernelIdeal.τ Cert.KernelIdeal.sig) → Buf (Elt Ideal) ℓ)

/-- The cell of the launch memory's arguments: the projections over the joined, transposed weights and joined biases. -/
def cellOf (c : Dev Cert.KernelIdeal.nD) : Buf (Elt Ideal) ((c.tc : Thread Cert.KernelIdeal.nD Cert.KernelIdeal.τ).loc main_v10) :=
  Cert.GruSpec.cell
    (Cert.GruSpec.proj (m ((c.tc : Thread nD τ).loc main_arg0))
      (wgtOperand (F := Ideal) (m ((c.tc : Thread nD τ).loc main_arg2)) (m ((c.tc : Thread nD τ).loc main_arg6)) (m ((c.tc : Thread nD τ).loc main_arg10)))
      (biasOperand (F := Ideal) (m ((c.tc : Thread nD τ).loc main_arg3)) (m ((c.tc : Thread nD τ).loc main_arg7)) (m ((c.tc : Thread nD τ).loc main_arg11))))
    (Cert.GruSpec.proj (m ((c.tc : Thread nD τ).loc main_arg1))
      (wgtOperand (F := Ideal) (m ((c.tc : Thread nD τ).loc main_arg4)) (m ((c.tc : Thread nD τ).loc main_arg8)) (m ((c.tc : Thread nD τ).loc main_arg12)))
      (biasOperand (F := Ideal) (m ((c.tc : Thread nD τ).loc main_arg5)) (m ((c.tc : Thread nD τ).loc main_arg9)) (m ((c.tc : Thread nD τ).loc main_arg13))))
    (m ((c.tc : Thread nD τ).loc main_arg1))

/-- What the run leaves in the new hidden state's buffer: the gating region's output array is the cell of the two
    projections' output arrays and the old state; each projection's output array is `proj` of what it was entered with;
    and what each region is entered with is read back to the launch memory. -/
theorem kernel_value (c : Dev Cert.KernelIdeal.nD) : W4 m c (Proc.devRef .tc main_v10) = cellOf m c := by
  rw [atEnd_main_v10, cellFinal, V3_main_v8, V3_main_v9, V3_main_arg1, projFinal0, projFinal1,
    V1_main_arg0, V1_main_v5, V1_main_v1, V2_main_arg1, V2_main_v7, V2_main_v3, V1_main_v7, V1_main_v3]
  rfl

end KernelValue

/-! ## The claims -/

theorem frame_kernel : Cert.frame_Kernel := fun m ρ _ =>
  (θ_run Cert.Kernel.defs _ _).mono (fun _ h c => (h c).2) (Cert.Kernel.Gru.run_main (F := Bits) m ρ)

theorem frame_kernelIdeal : Cert.frame_KernelIdeal := fun m ρ _ =>
  (θ_run Cert.KernelIdeal.defs _ _).mono (fun _ h c => (h c).2) (Cert.KernelIdeal.Gru.run_main (F := Ideal) m ρ)

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the new hidden state at the cell of the arguments: the kernel's by `kernel_value`, the reference's
    by its generated run read as the specification; the joined and transposed weight tables are the same host terms on both
    sides, and the kernel's change of format on them is the identity. -/
theorem algebraic : Cert.algebraic_KernelIdeal_ReferenceIdeal := by
  intro m ρ m' ρ' _ hagree
  refine ⟨cellOf m, ?_, ?_⟩
  · exact (θ_run Cert.KernelIdeal.defs _ _).mono (fun _ h c => ⟨(h c).1.trans (kernel_value m c), (h c).2⟩)
      (Cert.KernelIdeal.Gru.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v41_eq, Cert.ReferenceIdeal.RefSpec.result_is_cell,
      e0, e1, e2, e3, e4, e5, e6, e7, e8, e9, e10, e11, e12, e13]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
